-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩

abbrev nBuf : Space → Nat
  | .hbm => 98
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S_, .i32⟩
  | .hbm, ⟨19, _⟩ => ⟨S1700000, .i32⟩
  | .hbm, ⟨20, _⟩ => ⟨S1700000, .i1⟩
  | .hbm, ⟨21, _⟩ => ⟨S_, .i32⟩
  | .hbm, ⟨22, _⟩ => ⟨S1700000, .i32⟩
  | .hbm, ⟨23, _⟩ => ⟨S1700000, .i32⟩
  | .hbm, ⟨24, _⟩ => ⟨S1700000, .i32⟩
  | .hbm, ⟨25, _⟩ => ⟨S1700000x1, .i32⟩
  | .hbm, ⟨26, _⟩ => ⟨S_, .f32⟩
  | .hbm, ⟨27, _⟩ => ⟨S1700000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .f32⟩
  | .hbm, ⟨86, _⟩ => ⟨S1700000x1, .f32⟩
  | .hbm, ⟨87, _⟩ => ⟨S1700000x128, .f32⟩
  | .hbm, ⟨88, _⟩ => ⟨S1700000x128, .f32⟩
  | .hbm, ⟨89, _⟩ => ⟨S_, .f32⟩
  | .hbm, ⟨90, _⟩ => ⟨S100000x128, .f32⟩
  | .hbm, ⟨91, _⟩ => ⟨S1700000x1, .i32⟩
  | .hbm, ⟨92, _⟩ => ⟨S100000x128, .f32⟩
  | .hbm, ⟨93, _⟩ => ⟨S128, .f32⟩
  | .hbm, ⟨94, _⟩ => ⟨S1x128, .f32⟩
  | .hbm, ⟨95, _⟩ => ⟨S100000x128, .f32⟩
  | .hbm, ⟨96, _⟩ => ⟨S100000x64, .f32⟩
  | .hbm, ⟨97, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  concatenates_S128x64_S128x64_S128x128_d1 : Shape.Concatenates [S128x64, S128x64] S128x128 1
  shapeCasts_S128x128_S128x128 : S128x128.ShapeCasts S128x128
  concatenates_S64_S64_S128_d0 : Shape.Concatenates [S64, S64] S128 0
  slices_S100000x128_S100000x64_0_0 : S100000x128.Slices ![0, 0] S100000x64
  slices_S100000x128_S100000x64_0_64 : S100000x128.Slices ![0, 64] S100000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S_, .i32⟩
  | .hbm, ⟨19, _⟩ => ⟨S1700000, .i32⟩
  | .hbm, ⟨20, _⟩ => ⟨S1700000, .i1⟩
  | .hbm, ⟨21, _⟩ => ⟨S_, .i32⟩
  | .hbm, ⟨22, _⟩ => ⟨S1700000, .i32⟩
  | .hbm, ⟨23, _⟩ => ⟨S1700000, .i32⟩
  | .hbm, ⟨24, _⟩ => ⟨S1700000, .i32⟩
  | .hbm, ⟨25, _⟩ => ⟨S1700000x1, .i32⟩
  | .hbm, ⟨26, _⟩ => ⟨S_, .f32⟩
  | .hbm, ⟨27, _⟩ => ⟨S1700000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x64, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x64, .f32⟩
  | .hbm, ⟨89, _⟩ => ⟨S1700000x1, .f32⟩
  | .hbm, ⟨90, _⟩ => ⟨S1700000x64, .f32⟩
  | .hbm, ⟨91, _⟩ => ⟨S1700000x64, .f32⟩
  | .hbm, ⟨92, _⟩ => ⟨S_, .f32⟩
  | .hbm, ⟨93, _⟩ => ⟨S100000x64, .f32⟩
  | .hbm, ⟨94, _⟩ => ⟨S1700000x1, .i32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S_, .i32⟩
  | .hbm, ⟨101, _⟩ => ⟨S1700000, .i32⟩
  | .hbm, ⟨102, _⟩ => ⟨S1700000, .i1⟩
  | .hbm, ⟨103, _⟩ => ⟨S_, .i32⟩
  | .hbm, ⟨104, _⟩ => ⟨S1700000, .i32⟩
  | .hbm, ⟨105, _⟩ => ⟨S1700000, .i32⟩
  | .hbm, ⟨106, _⟩ => ⟨S1700000, .i32⟩
  | .hbm, ⟨107, _⟩ => ⟨S1700000x1, .i32⟩
  | .hbm, ⟨108, _⟩ => ⟨S1700000x64, .f32⟩
  | .hbm, ⟨109, _⟩ => ⟨S1700000x1, .f32⟩
  | .hbm, ⟨110, _⟩ => ⟨S1700000x64, .f32⟩
  | .hbm, ⟨111, _⟩ => ⟨S1700000x64, .f32⟩
  | .hbm, ⟨112, _⟩ => ⟨S_, .f32⟩
  | .hbm, ⟨113, _⟩ => ⟨S100000x64, .f32⟩
  | .hbm, ⟨114, _⟩ => ⟨S1700000x1, .i32⟩
  | .hbm, ⟨115, _⟩ => ⟨S100000x64, .f32⟩
  | .hbm, ⟨116, _⟩ => ⟨S1x64, .f32⟩
  | .hbm, ⟨117, _⟩ => ⟨S100000x64, .f32⟩
  | .hbm, ⟨118, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_c_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_c_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_16 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.EdgesK.lean ====
/-
  The graph's edge data as functions of the edge-index array `e : [2, 1600000]`, in the kernel program's spelling:
  the destination words (row 1 followed by the self loops `0 ‥ 99999`), the source words (row 0 followed by the
  self loops), a word wrapped into the node range the way jnp normalises a negative index (`v + 100000` where
  `v < 0`), each node's degree (ones scattered with addition at the wrapped destinations), its inverse square root
  where the degree is positive and zero elsewhere, and an edge's weight: the product of that quantity at its two
  ends. Both programs compute exactly these, by the same operations; the certificate never opens them.
-/
import proofs.«170396_j57758720196620_1_alg».proof.Proof.Gen.KernelIdeal

noncomputable section

namespace Cert.KernelIdeal.Edges

open Idealize.ShloMosaic Cert.KernelIdeal Cert.KernelIdeal.Gen

variable {F : FTy → Type} [FloatOps F]

/-- Row `q` of the edge-index array followed by the self loops. -/
def rowLoops (q : Fin 2) (e : IVec S2x1600000 32) : IVec S1700000 32 :=
  match q with
  | 0 => concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0
  | 1 => concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The source words. -/
abbrev srcRaw (e : IVec S2x1600000 32) : IVec S1700000 32 := rowLoops 0 e
/-- The destination words. -/
abbrev dstE (e : IVec S2x1600000 32) : IVec S1700000 32 := rowLoops 1 e

/-- A word wrapped into the node range: `v + 100000` where `v` is negative. -/
def wrap (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- The source words as the gathers read them. -/
abbrev srcE (e : IVec S2x1600000 32) : IVec S1700000 32 := wrap (srcRaw e)

/-- Each node's degree: ones scattered with addition at the wrapped destinations. -/
def degE (e : IVec S2x1600000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (wrap (dstE e))) (broadcastInDim S1700000 ![] bcast_S_S1700000 (constant S_ .f32 0x3F800000#32))

/-- The inverse square root of the degree where it is positive, zero elsewhere. -/
def dinvE (e : IVec S2x1600000 32) : FVec F S100000 .f32 :=
  select (cmpf (F := F) .ogt (degE e) (broadcastInDim S100000 ![] bcast_S_S100000 (constant S_ .f32 0x00000000#32))) (Host.rsqrt (degE e)) (broadcastInDim S100000 ![] bcast_S_S100000 (id (constant S_ .f32 0x00000000#32)))

/-- An edge's weight: that quantity at its source times that quantity at its destination. -/
def nrmE (e : IVec S2x1600000 32) : FVec F S1700000 .f32 :=
  mulf (Host.gather gather_S100000_S1700000x1_S1700000_n_0_n_n_0_1_1 (dinvE e) (broadcastInDim S1700000x1 ![0] bcast_S1700000_S1700000x1_0 (wrap (srcRaw e)))) (Host.gather gather_S100000_S1700000x1_S1700000_n_0_n_n_0_1_1 (dinvE e) (broadcastInDim S1700000x1 ![0] bcast_S1700000_S1700000x1_0 (wrap (dstE e))))

end Cert.KernelIdeal.Edges

end
-- ==== Proof.KChainA.lean ====
/-
  What survives the kernel program's run from its first stretch of host operations: the three edge arrays (source
  words, destination words, edge weights), computed once before the first region from the edge-index argument, are
  read again after the first and after the third region; no later host operation and no region writes them, so at
  those boundaries they still hold the same functions of the edge-index array. Likewise each argument a later
  stretch reads still holds its launch contents.
-/
import proofs.«170396_j57758720196620_1_alg».proof.Proof.Gen.KernelIdeal.Frame
import proofs.«170396_j57758720196620_1_alg».proof.Proof.EdgesK
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Edges

variable {F : FTy → Type} [FloatOps F]
variable (m : (ℓ : Loc nD τ sig) → Buf (Elt F) ℓ) (ρ : Dev nD → PrngReg)

/-- The edge-index argument as launched. -/
abbrev E (c : Dev nD) : IVec S2x1600000 32 := m ((c : Thread nD τ).loc main_arg1)

/-! ## The two kinds of step

  A buffer that no operation of a stretch of host operations writes holds after the stretch what it held before; a
  buffer that is none of a region's three arrays holds at the region's exit what it held at its entry. -/

/-- The buffer `b` is the result of no operation of the stretch `ops`, so the stretch leaves it alone. -/
local macro "unwritten " ops:ident " at " b:ident : tactic =>
  `(tactic| exact StableHlo.after_of_forall_not_mem (b := Proc.devRef .tc $b) _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The arguments at the first region's entry -/

/-- Argument 0 at the first region's entry: none of the three stretches before it writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by unwritten hostOps0_2 at main_arg0
    _ = W1 m ρ c (Proc.devRef .tc main_arg0) := by unwritten hostOps0_1 at main_arg0
    _ = W0 m ρ c (Proc.devRef .tc main_arg0) := by unwritten hostOps0 at main_arg0
    _ = m ((c : Thread nD τ).loc main_arg0) := rfl

/-- Argument 2 at the first region's entry: none of the three stretches before it writes it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by unwritten hostOps0_2 at main_arg2
    _ = W1 m ρ c (Proc.devRef .tc main_arg2) := by unwritten hostOps0_1 at main_arg2
    _ = W0 m ρ c (Proc.devRef .tc main_arg2) := by unwritten hostOps0 at main_arg2
    _ = m ((c : Thread nD τ).loc main_arg2) := rfl

/-- Argument 3 at the first region's entry: none of the three stretches before it writes it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by unwritten hostOps0_2 at main_arg3
    _ = W1 m ρ c (Proc.devRef .tc main_arg3) := by unwritten hostOps0_1 at main_arg3
    _ = W0 m ρ c (Proc.devRef .tc main_arg3) := by unwritten hostOps0 at main_arg3
    _ = m ((c : Thread nD τ).loc main_arg3) := rfl

/-- Argument 4 at the first region's entry: none of the three stretches before it writes it. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by unwritten hostOps0_2 at main_arg4
    _ = W1 m ρ c (Proc.devRef .tc main_arg4) := by unwritten hostOps0_1 at main_arg4
    _ = W0 m ρ c (Proc.devRef .tc main_arg4) := by unwritten hostOps0 at main_arg4
    _ = m ((c : Thread nD τ).loc main_arg4) := rfl

/-- Argument 5 at the first region's entry: none of the three stretches before it writes it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by unwritten hostOps0_2 at main_arg5
    _ = W1 m ρ c (Proc.devRef .tc main_arg5) := by unwritten hostOps0_1 at main_arg5
    _ = W0 m ρ c (Proc.devRef .tc main_arg5) := by unwritten hostOps0 at main_arg5
    _ = m ((c : Thread nD τ).loc main_arg5) := rfl

/-- Argument 6 at the first region's entry: none of the three stretches before it writes it. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by unwritten hostOps0_2 at main_arg6
    _ = W1 m ρ c (Proc.devRef .tc main_arg6) := by unwritten hostOps0_1 at main_arg6
    _ = W0 m ρ c (Proc.devRef .tc main_arg6) := by unwritten hostOps0 at main_arg6
    _ = m ((c : Thread nD τ).loc main_arg6) := rfl

/-- Argument 7 at the first region's entry: none of the three stretches before it writes it. -/
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by unwritten hostOps0_2 at main_arg7
    _ = W1 m ρ c (Proc.devRef .tc main_arg7) := by unwritten hostOps0_1 at main_arg7
    _ = W0 m ρ c (Proc.devRef .tc main_arg7) := by unwritten hostOps0 at main_arg7
    _ = m ((c : Thread nD τ).loc main_arg7) := rfl

/-! ## The edge arrays at the first region's entry

  The first stretch cuts the two rows out of the edge-index array, lays each as a vector and appends the self loops:
  the source words and the destination words. It goes on to the degrees (ones scattered with addition at the wrapped
  destinations) and to the comparison with zero and the inverse square root; the second stretch selects between the
  two; the third gathers the result at the wrapped source and destination words and multiplies: the edge weights. -/

/-- The source words after the first stretch: row 0 of the edge-index array as a vector, then the self loops. -/
theorem W1_src (c : Dev nD) : W1 m ρ c (Proc.devRef .tc main_v3) = srcRaw (E m c) := by
  show StableHlo.after hostOps0 (W0 m ρ c) (Proc.devRef .tc main_v3) = _
  after_results
  rfl

/-- The destination words after the first stretch: row 1 of the edge-index array as a vector, then the self loops. -/
theorem W1_dst (c : Dev nD) : W1 m ρ c (Proc.devRef .tc main_v7) = dstE (E m c) := by
  show StableHlo.after hostOps0 (W0 m ρ c) (Proc.devRef .tc main_v7) = _
  after_results
  rfl

set_option maxHeartbeats 1000000 in
/-- Each node's degree after the first stretch: ones scattered with addition at the wrapped destination words. -/
theorem W1_deg (c : Dev nD) : W1 m ρ c (Proc.devRef .tc main_v16) = degE (F := F) (E m c) := by
  show StableHlo.after hostOps0 (W0 m ρ c) (Proc.devRef .tc main_v16) = _
  after_results_simp
  rfl

set_option maxHeartbeats 1000000 in
/-- Where the degree is positive, after the first stretch. -/
theorem W1_pos (c : Dev nD) : W1 m ρ c (Proc.devRef .tc main_v18)
    = cmpf (F := F) .ogt (degE (E m c)) (broadcastInDim S100000 ![] bcast_S_S100000 (constant S_ .f32 0x00000000#32)) := by
  show StableHlo.after hostOps0 (W0 m ρ c) (Proc.devRef .tc main_v18) = _
  after_results_simp
  rfl

set_option maxHeartbeats 1000000 in
/-- The inverse square root of the degree, after the first stretch. -/
theorem W1_rsqrt (c : Dev nD) : W1 m ρ c (Proc.devRef .tc main_v19) = Host.rsqrt (degE (F := F) (E m c)) := by
  show StableHlo.after hostOps0 (W0 m ρ c) (Proc.devRef .tc main_v19) = _
  after_results_simp
  rfl

/-- The zero the second stretch broadcasts, after the first stretch. -/
theorem W1_zero (c : Dev nD) : W1 m ρ c (Proc.devRef .tc main_cst_3) = constant (F := F) S_ .f32 0x00000000#32 := by
  show StableHlo.after hostOps0 (W0 m ρ c) (Proc.devRef .tc main_cst_3) = _
  after_results

/-- After the second stretch: the inverse square root of the degree where it is positive, zero elsewhere. -/
theorem W2_dinv (c : Dev nD) : W2 m ρ c (Proc.devRef .tc main_v20) = dinvE (F := F) (E m c) := by
  have h18 := W1_pos m ρ c
  have h19 := W1_rsqrt m ρ c
  have h0 := W1_zero m ρ c
  show StableHlo.after hostOps0_1 (W1 m ρ c) (Proc.devRef .tc main_v20) = _
  generalize W1 m ρ c = V at h18 h19 h0 ⊢
  after_results
  rw [h18, h19, h0]
  rfl

/-- The source words are still there after the second stretch, which does not write them … -/
theorem W2_src (c : Dev nD) : W2 m ρ c (Proc.devRef .tc main_v3) = srcRaw (E m c) :=
  calc W2 m ρ c (Proc.devRef .tc main_v3)
    _ = W1 m ρ c (Proc.devRef .tc main_v3) := by unwritten hostOps0_1 at main_v3
    _ = srcRaw (E m c) := W1_src m ρ c

/-- … and so are the destination words. -/
theorem W2_dst (c : Dev nD) : W2 m ρ c (Proc.devRef .tc main_v7) = dstE (E m c) :=
  calc W2 m ρ c (Proc.devRef .tc main_v7)
    _ = W1 m ρ c (Proc.devRef .tc main_v7) := by unwritten hostOps0_1 at main_v7
    _ = dstE (E m c) := W1_dst m ρ c

/-- The source words at the first region's entry: the third stretch reads them and does not write them. -/
theorem W3_src (c : Dev nD) : W3 m ρ c (Proc.devRef .tc main_v3) = srcRaw (E m c) :=
  calc W3 m ρ c (Proc.devRef .tc main_v3)
    _ = W2 m ρ c (Proc.devRef .tc main_v3) := by unwritten hostOps0_2 at main_v3
    _ = srcRaw (E m c) := W2_src m ρ c

/-- The destination words at the first region's entry, likewise. -/
theorem W3_dst (c : Dev nD) : W3 m ρ c (Proc.devRef .tc main_v7) = dstE (E m c) :=
  calc W3 m ρ c (Proc.devRef .tc main_v7)
    _ = W2 m ρ c (Proc.devRef .tc main_v7) := by unwritten hostOps0_2 at main_v7
    _ = dstE (E m c) := W2_dst m ρ c

set_option maxHeartbeats 1000000 in
/-- The edge weights at the first region's entry: the third stretch wraps the source and the destination words into
    the node range, gathers the inverse square roots of the degrees at both and multiplies. -/
theorem W3_nrm (c : Dev nD) : W3 m ρ c (Proc.devRef .tc main_v35) = nrmE (F := F) (E m c) := by
  have h3 := W2_src m ρ c
  have h7 := W2_dst m ρ c
  have h20 := W2_dinv m ρ c
  show StableHlo.after hostOps0_2 (W2 m ρ c) (Proc.devRef .tc main_v35) = _
  generalize W2 m ρ c = V at h3 h7 h20 ⊢
  after_results_simp
  rw [h3, h7, h20]
  rfl

/-! ## After the first region (what the second stretch reads) -/

/-- The source words are none of the first region's arrays. -/
theorem W4_src (c : Dev nD) : W4 m ρ c (Proc.devRef .tc main_v3) = srcRaw (E m c) :=
  (W4_of_ne m ρ c main_v3 (by decide)).trans (W3_src m ρ c)
/-- Nor are the destination words … -/
theorem W4_dst (c : Dev nD) : W4 m ρ c (Proc.devRef .tc main_v7) = dstE (E m c) :=
  (W4_of_ne m ρ c main_v7 (by decide)).trans (W3_dst m ρ c)
/-- … nor the edge weights … -/
theorem W4_nrm (c : Dev nD) : W4 m ρ c (Proc.devRef .tc main_v35) = nrmE (F := F) (E m c) :=
  (W4_of_ne m ρ c main_v35 (by decide)).trans (W3_nrm m ρ c)
/-- … nor the first layer's bias. -/
theorem W4_arg3 (c : Dev nD) : W4 m ρ c (Proc.devRef .tc main_arg3) = m ((c : Thread nD τ).loc main_arg3) :=
  (W4_of_ne m ρ c main_arg3 (by decide)).trans (W3_main_arg3 m ρ c)

/-! ## At the first region's entry (what it reads) -/

/-- The node features and the first layer's weights, as launched. -/
theorem W3_arg0 (c : Dev nD) : W3 m ρ c (Proc.devRef .tc main_arg0) = m ((c : Thread nD τ).loc main_arg0) :=
  W3_main_arg0 m ρ c
theorem W3_arg2 (c : Dev nD) : W3 m ρ c (Proc.devRef .tc main_arg2) = m ((c : Thread nD τ).loc main_arg2) :=
  W3_main_arg2 m ρ c

/-! ## After the second region (what the concatenate of the weights reads) -/

/-- The second layer's two weight matrices are arrays of neither of the first two regions, and the stretch between
    them does not write them. -/
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by unwritten hostOps1 at main_arg4
    _ = W3 m ρ c (Proc.devRef .tc main_arg4) := W4_of_ne m ρ c main_arg4 (by decide)
    _ = m ((c : Thread nD τ).loc main_arg4) := W3_main_arg4 m ρ c
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by unwritten hostOps1 at main_arg6
    _ = W3 m ρ c (Proc.devRef .tc main_arg6) := W4_of_ne m ρ c main_arg6 (by decide)
    _ = m ((c : Thread nD τ).loc main_arg6) := W3_main_arg6 m ρ c

/-! ## After the third region (what the fourth stretch reads) -/

/-- The three edge arrays are arrays of neither the second nor the third region, and neither the second nor the
    third stretch between regions writes them: after the third region they hold what they held after the first. -/
theorem W8_src (c : Dev nD) : W8 m ρ c (Proc.devRef .tc main_v3) = srcRaw (E m c) :=
  calc W8 m ρ c (Proc.devRef .tc main_v3)
    _ = W7 m ρ c (Proc.devRef .tc main_v3) := W8_of_ne m ρ c main_v3 (by decide)
    _ = W6 m ρ c (Proc.devRef .tc main_v3) := by unwritten hostOps2 at main_v3
    _ = W5 m ρ c (Proc.devRef .tc main_v3) := W6_of_ne m ρ c main_v3 (by decide)
    _ = W4 m ρ c (Proc.devRef .tc main_v3) := by unwritten hostOps1 at main_v3
    _ = srcRaw (E m c) := W4_src m ρ c
theorem W8_dst (c : Dev nD) : W8 m ρ c (Proc.devRef .tc main_v7) = dstE (E m c) :=
  calc W8 m ρ c (Proc.devRef .tc main_v7)
    _ = W7 m ρ c (Proc.devRef .tc main_v7) := W8_of_ne m ρ c main_v7 (by decide)
    _ = W6 m ρ c (Proc.devRef .tc main_v7) := by unwritten hostOps2 at main_v7
    _ = W5 m ρ c (Proc.devRef .tc main_v7) := W6_of_ne m ρ c main_v7 (by decide)
    _ = W4 m ρ c (Proc.devRef .tc main_v7) := by unwritten hostOps1 at main_v7
    _ = dstE (E m c) := W4_dst m ρ c
theorem W8_nrm (c : Dev nD) : W8 m ρ c (Proc.devRef .tc main_v35) = nrmE (F := F) (E m c) :=
  calc W8 m ρ c (Proc.devRef .tc main_v35)
    _ = W7 m ρ c (Proc.devRef .tc main_v35) := W8_of_ne m ρ c main_v35 (by decide)
    _ = W6 m ρ c (Proc.devRef .tc main_v35) := by unwritten hostOps2 at main_v35
    _ = W5 m ρ c (Proc.devRef .tc main_v35) := W6_of_ne m ρ c main_v35 (by decide)
    _ = W4 m ρ c (Proc.devRef .tc main_v35) := by unwritten hostOps1 at main_v35
    _ = nrmE (F := F) (E m c) := W4_nrm m ρ c
/-- The second layer's two biases are arrays of none of the first three regions, and no stretch between them writes
    them. -/
theorem W8_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := by unwritten hostOps2 at main_arg5
    _ = W5 m ρ c (Proc.devRef .tc main_arg5) := W6_of_ne m ρ c main_arg5 (by decide)
    _ = W4 m ρ c (Proc.devRef .tc main_arg5) := by unwritten hostOps1 at main_arg5
    _ = W3 m ρ c (Proc.devRef .tc main_arg5) := W4_of_ne m ρ c main_arg5 (by decide)
    _ = m ((c : Thread nD τ).loc main_arg5) := W3_main_arg5 m ρ c
theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by unwritten hostOps2 at main_arg7
    _ = W5 m ρ c (Proc.devRef .tc main_arg7) := W6_of_ne m ρ c main_arg7 (by decide)
    _ = W4 m ρ c (Proc.devRef .tc main_arg7) := by unwritten hostOps1 at main_arg7
    _ = W3 m ρ c (Proc.devRef .tc main_arg7) := W4_of_ne m ρ c main_arg7 (by decide)
    _ = m ((c : Thread nD τ).loc main_arg7) := W3_main_arg7 m ρ c

end Cert.KernelIdeal.Chain

end
-- ==== Proof.LibRowGather.lean ====
/-
  A row gather, read at an index.

  jnp's `h[src]` over a matrix `h : [N, C]` with one start index per result row prints as a gather whose operand
  axis 0 is collapsed and start-indexed and whose axis 1 is the one offset axis: result row `e` is row
  `clamp(idx[e, 0])` of the operand, whole — the start index read signed and clamped into `[0, N − 1]`. Stated for
  any record with these dimension numbers (each hypothesis a `rfl` at a printed record), any extents, any index width.
-/
import Idealize.ShloMosaic.PureOps.Ideal
import Idealize.ShloMosaic.Lib.ValueIdx

noncomputable section

namespace Idealize.ShloMosaic.RowOps

open Idealize.ShloMosaic Idealize.ShloMosaic.ValueIdx

/-- The operand row a start index names: the word read as a signed integer and clamped into `[0, N − 1]`
    (a negative index reads row 0, one past the end the last row). -/
def clampRow (N : Nat) (hN : 0 < N) {w : Nat} (v : BitVec w) : Fin N := ⟨min v.toInt.toNat (N - 1), by omega⟩

/-- THE ROW GATHER READ AT `(e, j)`: column `j` of the operand row that start index `e` names. -/
theorem gather_rows_apply {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![n, 1]⟩ w) (e : Fin n) (j : Fin C) :
    Host.gather d x idx (ix2 e j) = x (ix2 (clampRow N hN (idx (ix2 e (0 : Fin 1)))) j) := by
  unfold Host.gather
  congr 1
  -- the axis lists the dimension numbers fix: no operand axis is a batching axis; the result's one batch axis is
  -- axis 0 (the axes that are not offset axes), its one offset axis is axis 1
  have hb : ∀ a : Fin 2, a ∉ d.operandBatchingDims := fun a => by rw [hob]; exact List.not_mem_nil
  have hbd : ∀ (i : Nat) (h : i < d.batchDims.length), d.batchDims[i]'h = (0 : Fin 2) := by
    intro i h
    have hl : d.batchDims = [0] := by
      show Shape.kept _ d.offsetDims = _
      rw [hoff]; rfl
    have hall : ∀ y ∈ d.batchDims, y = (0 : Fin 2) := by
      intro y hy; rw [hl] at hy; exact List.mem_singleton.mp hy
    exact hall _ (List.getElem_mem h)
  have hod : ∀ (i : Nat) (h : i < d.offsetDims.length), d.offsetDims[i]'h = (1 : Fin 2) := by
    intro i h
    have hall : ∀ y ∈ d.offsetDims, y = (1 : Fin 2) := by
      intro y hy; rw [hoff] at hy; exact List.mem_singleton.mp hy
    exact hall _ (List.getElem_mem h)
  -- the result index's two coordinates, read at an axis known only up to equality
  have he : ∀ X : Fin 2, X = 0 → ((ix2 e j : (⟨2, ![n, C]⟩ : Shape).Idx) X).val = e.val := by
    intro X hX; subst hX; rfl
  have hj : ∀ X : Fin 2, X = 1 → ((ix2 e j : (⟨2, ![n, C]⟩ : Shape).Idx) X).val = j.val := by
    intro X hX; subst hX; rfl
  -- the operand index, axis by axis: clamped start + batching coordinate + offset coordinate
  funext a
  apply Fin.ext
  match a with
  | ⟨0, _⟩ =>
    -- axis 0 is collapsed (slice size 1, offset coordinate 0) and start-indexed: the start is the index word read
    -- signed and clamped into [0, N − 1]
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0
      = min (idx (ix2 e (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = _
    rw [hsl]
    -- the start index is read at (e, 0): the result's batch coordinate on the start indices' axis 0, and component 0
    -- (the position of operand axis 0 in the start index map) on the index vector's axis 1
    have hsi : d.siIdx (ix2 e j) ⟨List.idxOf (0 : Fin 2) d.startIndexMap, List.idxOf_lt_length_iff.2 hm⟩
        = ix2 e (0 : Fin 1) := by
      funext b
      match b with
      | ⟨0, _⟩ =>
        unfold GatherDims.siIdx
        rw [dif_neg (by rw [hivd]; simp)]
        unfold GatherDims.siCoord
        apply Fin.ext
        simp only [Fin.val_cast]
        exact he _ (hbd _ _)
      | ⟨1, _⟩ =>
        unfold GatherDims.siIdx
        rw [dif_pos (by rw [hivd])]
        apply Fin.ext
        show List.idxOf (0 : Fin 2) d.startIndexMap = 0
        rw [hsim]; simp
    rw [hsi]
  | ⟨1, _⟩ =>
    -- axis 1 is not start-indexed (start 0) and is the one kept axis: its offset coordinate is the result's
    -- coordinate on the offset axis, j
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1)]
    simp only [Nat.add_zero]
    unfold GatherDims.start
    rw [dif_neg hm, Nat.zero_add]
    unfold GatherDims.offCoord
    rw [dif_pos hk]
    exact hj _ (hod _ _)

end Idealize.ShloMosaic.RowOps

end
-- ==== Proof.Spec.lean ====
/-
  The two-layer graph convolution, as functions of the argument arrays read index by index over the extended reals.

  One layer is `relu?(A·(x·W) + b)`, where the aggregation `A` sends a node-feature matrix `y : [N, C]` to
  `(A y)(r, j) = ∑ over the edges e whose destination is r of y(src e, j) · norm e`. Every step — the product with the
  weights, the aggregation, the bias — acts on column `j` of its operand alone. So running the second layer once on the
  two heads' weights laid side by side, `[Wmu | Wls]`, with the biases laid end to end, and then cutting columns
  `0‥63` and `64‥127` out of the result, gives the two heads run separately: entry by entry the same sums, with no
  algebraic law needed and nothing asked of the entries (they may be infinite).
-/
import Idealize.ShloMosaic.PureOps.Ideal
import Idealize.ShloMosaic.Lib.ValueIdx
import proofs.«170396_j57758720196620_1_alg».proof.Proof.LibRowGather

noncomputable section

open scoped BigOperators

namespace Cert.Spec

open Idealize.ShloMosaic Idealize.ShloMosaic.ValueIdx Idealize.ShloMosaic.RowOps

/-- Node features: one row per node, `C` columns. -/
abbrev SN (C : Nat) : Shape := ⟨2, ![100000, C]⟩
/-- One row per edge (self loops included), `C` columns. -/
abbrev SE2 (C : Nat) : Shape := ⟨2, ![1700000, C]⟩
/-- One entry per edge. -/
abbrev SE : Shape := ⟨1, ![1700000]⟩
/-- A weight matrix: 128 rows, `C` columns. -/
abbrev SW (C : Nat) : Shape := ⟨2, ![128, C]⟩
/-- A bias: `C` entries. -/
abbrev SB (C : Nat) : Shape := ⟨1, ![C]⟩

/-- The scalar shape. -/
abbrev S0 : Shape := ⟨0, ![]⟩
/-- One start index per edge, kept as a column. -/
abbrev SE1 : Shape := ⟨2, ![1700000, 1]⟩
/-- A bias kept as a one-row matrix. -/
abbrev SR (C : Nat) : Shape := ⟨2, ![1, C]⟩

/-- A one-row matrix read as the vector of its entries. -/
def rowOf {C : Nat} (b : (SR C).Idx → EReal) : (SB C).Idx → EReal :=
  fun i => b (ix2 (0 : Fin 1) (⟨(i 0).val, (i 0).isLt⟩ : Fin C))

/-- The product with the weights: `(x·w)(r, j) = ∑ k, x(r, k) · w(k, j)`. -/
def mm {C : Nat} (x : (SN 128).Idx → EReal) (w : (SW C).Idx → EReal) : (SN C).Idx → EReal :=
  fun i => ∑ k : Fin 128, x (ix2 (⟨(i 0).val, idx2_lt0 i⟩ : Fin 100000) k) * w (ix2 k (⟨(i 1).val, idx2_lt1 i⟩ : Fin C))

/-- The aggregation: entry `(r, j)` sums, over the edges whose destination word read signed is `r`, column `j` of the
    source node's row (the source word read signed and clamped into the node range) times the edge's weight. -/
def aggr {C : Nat} (y : (SN C).Idx → EReal) (dst src : IVec SE 32) (nrm : SE.Idx → EReal) : (SN C).Idx → EReal :=
  fun i => ∑ e ∈ Finset.univ.filter (fun e : Fin 1700000 => (dst (ix1 e)).toInt = (((i 0).val : ℕ) : ℤ)),
    y (ix2 (clampRow 100000 (by decide) (src (ix1 e))) (⟨(i 1).val, idx2_lt1 i⟩ : Fin C)) * nrm (ix1 e)

/-- Bias added along the rows. -/
def bias {C : Nat} (a : (SN C).Idx → EReal) (b : (SB C).Idx → EReal) : (SN C).Idx → EReal :=
  fun i => a i + b (ix1 (⟨(i 1).val, idx2_lt1 i⟩ : Fin C))

/-- Bias, then the positive part. -/
def biasRelu (a : (SN 128).Idx → EReal) (b : (SB 128).Idx → EReal) : (SN 128).Idx → EReal :=
  fun i => max (a i + b (ix1 (⟨(i 1).val, idx2_lt1 i⟩ : Fin 128))) 0

/-- Two 64-column weight matrices side by side. -/
def catCols (a b : (SW 64).Idx → EReal) : (SW 128).Idx → EReal :=
  fun i => if h : (i 1).val < 64 then a (ix2 (⟨(i 0).val, idx2_lt0 i⟩ : Fin 128) (⟨(i 1).val, h⟩ : Fin 64))
    else b (ix2 (⟨(i 0).val, idx2_lt0 i⟩ : Fin 128) (⟨(i 1).val - 64, by have := idx2_lt1 i; omega⟩ : Fin 64))

/-- Two 64-entry biases end to end. -/
def cat1 (a b : (SB 64).Idx → EReal) : (SB 128).Idx → EReal :=
  fun i => if h : (i 0).val < 64 then a (ix1 (⟨(i 0).val, h⟩ : Fin 64))
    else b (ix1 (⟨(i 0).val - 64, by have : (i 0).val < 128 := (i 0).isLt; omega⟩ : Fin 64))

/-- Columns `c0 ‥ c0 + 63` of a 128-column matrix. -/
def colSlice (c0 : Nat) (hc : c0 + 64 ≤ 128) (y : (SN 128).Idx → EReal) : (SN 64).Idx → EReal :=
  fun i => y (ix2 (⟨(i 0).val, idx2_lt0 i⟩ : Fin 100000) (⟨c0 + (i 1).val, by have := idx2_lt1 i; omega⟩ : Fin 128))

/-- In the left half the side-by-side matrix reads the first matrix: column `0 + c` with `c < 64` is column `c` of it. -/
private theorem catCols_left (a b : (SW 64).Idx → EReal) (k : Fin 128) (c : Fin 64) (h : 0 + c.val < 128) :
    catCols a b (ix2 k (⟨0 + c.val, h⟩ : Fin 128)) = a (ix2 k c) := by
  unfold catCols
  have h1 : ((ix2 k (⟨0 + c.val, h⟩ : Fin 128)) 1).val < 64 := by
    show 0 + c.val < 64
    have := c.isLt
    omega
  rw [dif_pos h1]
  congr 1
  funext d
  match d with
  | ⟨0, _⟩ => rfl
  | ⟨1, _⟩ => exact Fin.ext (by show 0 + c.val = c.val; omega)

/-- In the right half the side-by-side matrix reads the second matrix: column `64 + c` is column `c` of it. -/
private theorem catCols_right (a b : (SW 64).Idx → EReal) (k : Fin 128) (c : Fin 64) (h : 64 + c.val < 128) :
    catCols a b (ix2 k (⟨64 + c.val, h⟩ : Fin 128)) = b (ix2 k c) := by
  unfold catCols
  have h1 : ¬ ((ix2 k (⟨64 + c.val, h⟩ : Fin 128)) 1).val < 64 := by
    show ¬ (64 + c.val < 64)
    omega
  rw [dif_neg h1]
  congr 1
  funext d
  match d with
  | ⟨0, _⟩ => rfl
  | ⟨1, _⟩ => exact Fin.ext (by show 64 + c.val - 64 = c.val; omega)

/-- Entry `0 + c` of the end-to-end bias is entry `c` of the first bias. -/
private theorem cat1_left (a b : (SB 64).Idx → EReal) (c : Fin 64) (h : 0 + c.val < 128) :
    cat1 a b (ix1 (⟨0 + c.val, h⟩ : Fin 128)) = a (ix1 c) := by
  unfold cat1
  have h1 : ((ix1 (⟨0 + c.val, h⟩ : Fin 128)) 0).val < 64 := by
    show 0 + c.val < 64
    have := c.isLt
    omega
  rw [dif_pos h1]
  congr 1
  funext d
  match d with
  | ⟨0, _⟩ => exact Fin.ext (by show 0 + c.val = c.val; omega)

/-- Entry `64 + c` of the end-to-end bias is entry `c` of the second bias. -/
private theorem cat1_right (a b : (SB 64).Idx → EReal) (c : Fin 64) (h : 64 + c.val < 128) :
    cat1 a b (ix1 (⟨64 + c.val, h⟩ : Fin 128)) = b (ix1 c) := by
  unfold cat1
  have h1 : ¬ ((ix1 (⟨64 + c.val, h⟩ : Fin 128)) 0).val < 64 := by
    show ¬ (64 + c.val < 64)
    omega
  rw [dif_neg h1]
  congr 1
  funext d
  match d with
  | ⟨0, _⟩ => exact Fin.ext (by show 64 + c.val - 64 = c.val; omega)

/-- THE FIRST HEAD: columns `0‥63` of the fused second layer are the layer run on `Wmu`, `bmu` alone. -/
theorem head_mu (H : (SN 128).Idx → EReal) (wmu wls : (SW 64).Idx → EReal) (bmu bls : (SB 64).Idx → EReal)
    (dst src : IVec SE 32) (nrm : SE.Idx → EReal) :
    colSlice 0 (by decide) (bias (aggr (mm H (catCols wmu wls)) dst src nrm) (cat1 bmu bls))
      = bias (aggr (mm H wmu) dst src nrm) bmu := by
  funext i
  obtain ⟨r, c, rfl⟩ : ∃ (r : Fin 100000) (c : Fin 64), i = ValueIdx.ix2 r c := ⟨i 0, i 1, ValueIdx.eq_ix2 i⟩
  simp only [colSlice, bias, aggr, mm]
  refine congrArg₂ (fun a b : EReal => a + b) (Finset.sum_congr rfl fun e _ => ?_) ?_
  · refine congrArg₂ (fun a b : EReal => a * b) (Finset.sum_congr rfl fun k _ => ?_) rfl
    refine congrArg₂ (fun a b : EReal => a * b) rfl ?_
    exact catCols_left wmu wls k c _
  · exact cat1_left bmu bls c _

/-- THE SECOND HEAD: columns `64‥127` of the fused second layer are the layer run on `Wls`, `bls` alone. -/
theorem head_ls (H : (SN 128).Idx → EReal) (wmu wls : (SW 64).Idx → EReal) (bmu bls : (SB 64).Idx → EReal)
    (dst src : IVec SE 32) (nrm : SE.Idx → EReal) :
    colSlice 64 (by decide) (bias (aggr (mm H (catCols wmu wls)) dst src nrm) (cat1 bmu bls))
      = bias (aggr (mm H wls) dst src nrm) bls := by
  funext i
  obtain ⟨r, c, rfl⟩ : ∃ (r : Fin 100000) (c : Fin 64), i = ValueIdx.ix2 r c := ⟨i 0, i 1, ValueIdx.eq_ix2 i⟩
  simp only [colSlice, bias, aggr, mm]
  refine congrArg₂ (fun a b : EReal => a + b) (Finset.sum_congr rfl fun e _ => ?_) ?_
  · refine congrArg₂ (fun a b : EReal => a * b) (Finset.sum_congr rfl fun k _ => ?_) rfl
    refine congrArg₂ (fun a b : EReal => a * b) rfl ?_
    exact catCols_right wmu wls k c _
  · exact cat1_right bmu bls c _

end Cert.Spec

end
-- ==== Proof.Region0.lean ====
/-
  The first kernel region: the product of the node features with the first layer's weights, ten row blocks of
  10,000 nodes. Grid point `t` reads rows `10000·t ‥ 10000·t + 9999` of `x` and all of `W`, and writes the same rows of
  the result: entry `(p, q)` of its block is `∑ k, x(10000·t + p, k) · W(k, q)` (the change to the narrower float format
  on the way is the identity on extended reals, the accumulator is zero). The ten blocks tile the array, so after the
  region the array is `x·W`, whole, whatever the region found in its operands' arrays.
-/
import proofs.«170396_j57758720196620_1_alg».proof.Proof.Gen.KernelIdeal.Frame
import proofs.«170396_j57758720196620_1_alg».proof.Proof.Spec
import Idealize.ShloMosaic.Lib.Pipeline.Value
import Idealize.ShloMosaic.Lib.ValueLayout
import Idealize.ShloMosaic.PureOps.Ideal.Laws
import Idealize.ShloMosaic.Lib.ValueIdx

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)

-- the TensorCore's buffer contents when the region is entered: any
variable (V : (c : Dev nD) → (b : Ref sig .tc) → Buf (Elt Ideal) ((c : Thread nD τ).loc b))

/-! ## The product's operand indices -/

/-- The left operand is read in the row of the result's entry. -/
theorem lhs_row (j : S10000x128.Idx) (k : dot_S10000x128_S128x128_S10000x128_1_0_0_1_n_n.contr.Idx) :
    (dot_S10000x128_S128x128_S10000x128_1_0_0_1_n_n.lhsIdx j k (0 : Fin 2)).val = (j (0 : Fin 2)).val := rfl

/-- The left operand is read in the column the sum runs over. -/
theorem lhs_col (j : S10000x128.Idx) (k : dot_S10000x128_S128x128_S10000x128_1_0_0_1_n_n.contr.Idx) :
    (dot_S10000x128_S128x128_S10000x128_1_0_0_1_n_n.lhsIdx j k (1 : Fin 2)).val = (k ⟨0, by decide⟩).val :=
  dot_S10000x128_S128x128_S10000x128_1_0_0_1_n_n.lhsIdx_val_of_single (cl := (1 : Fin 2)) rfl j k

/-- The right operand is read in the row the sum runs over. -/
theorem rhs_row (j : S10000x128.Idx) (k : dot_S10000x128_S128x128_S10000x128_1_0_0_1_n_n.contr.Idx) :
    (dot_S10000x128_S128x128_S10000x128_1_0_0_1_n_n.rhsIdx j k (0 : Fin 2)).val = (k ⟨0, by decide⟩).val :=
  dot_S10000x128_S128x128_S10000x128_1_0_0_1_n_n.rhsIdx_val_of_single (cr := (0 : Fin 2)) rfl j k

/-- The right operand is read in the column of the result's entry. -/
theorem rhs_col (j : S10000x128.Idx) (k : dot_S10000x128_S128x128_S10000x128_1_0_0_1_n_n.contr.Idx) :
    (dot_S10000x128_S128x128_S10000x128_1_0_0_1_n_n.rhsIdx j k (1 : Fin 2)).val = (j (1 : Fin 2)).val := rfl

/-! ## One entry of the body's result -/

/-- The all-zero offset of the body's three accesses, spelt as the constant function. -/
theorem origin_eq : (![0, 0] : Fin 2 → Nat) = fun _ => 0 := funext fun a => by fin_cases a <;> rfl

/-- Entry `(p, q)` of what the body stores, from the two blocks it loaded: the narrowing of both operands is the identity
    on extended reals and the accumulator is zero, so it is the plain sum `∑ k, x(p, k) · w(k, q)` over the 128 shared
    coordinates. -/
theorem body_entry (x : Vec Ideal S10000x128 .f32) (w : Vec Ideal S128x128 .f32) (p : Fin 10000) (q : Fin 128) :
    k0_pay1 (F := Ideal) x w (ix2 p q) = ∑ k : Fin 128, x (ix2 p k) * w (ix2 k q) := by
  unfold k0_pay1
  refine (Ideal.matmul_constant_zero_apply dot_S10000x128_S128x128_S10000x128_1_0_0_1_n_n none _ _ (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have hl : dot_S10000x128_S128x128_S10000x128_1_0_0_1_n_n.lhsIdx (ix2 p q)
      ((contrEquiv1 dot_S10000x128_S128x128_S10000x128_1_0_0_1_n_n 128 rfl rfl).symm k) = ix2 p k := by
    funext a; apply Fin.ext
    match a with
    | ⟨0, _⟩ => exact lhs_row _ _
    | ⟨1, _⟩ => exact (lhs_col _ _).trans hk
  have hr : dot_S10000x128_S128x128_S10000x128_1_0_0_1_n_n.rhsIdx (ix2 p q)
      ((contrEquiv1 dot_S10000x128_S128x128_S10000x128_1_0_0_1_n_n 128 rfl rfl).symm k) = ix2 k q := by
    funext a; apply Fin.ext
    match a with
    | ⟨0, _⟩ => exact (rhs_row _ _).trans hk
    | ⟨1, _⟩ => exact rhs_col _ _
  show x (dot_S10000x128_S128x128_S10000x128_1_0_0_1_n_n.lhsIdx (ix2 p q) _) * w (dot_S10000x128_S128x128_S10000x128_1_0_0_1_n_n.rhsIdx (ix2 p q) _) = _
  rw [hl, hr]

/-! ## The blocks of the three arrays -/

/-- The region's index maps over its ten grid points, decided once: point `t` takes row block `t` of `x` and of the
    result (block column 0), and the one block of `W`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of the block of `x` that point `t` reads is `x(10000·t + p, k)`. -/
theorem x_block (c : Dev nD) (t : Fin cfg0.N) (p : Fin 10000) (k : Fin 128) (i : S100000x128.Idx)
    (h0 : (i 0).val = t.val * 10000 + p.val) (h1 : (i 1).val = k.val) :
    iblk0 V c 0 t (ix2 p k) = V c main_arg0 i := by
  unfold iblk0
  show V c main_arg0 (((cfg0.win 0).blk t).view.emb (ix2 p k)) = V c main_arg0 i
  refine congrArg (V c main_arg0) ?_
  obtain ⟨e0, e1, -⟩ := block_indices t
  funext a; apply Fin.ext
  match a with
  | ⟨0, _⟩ => show win0_0.index t (0 : Fin 2) * 10000 + 1 * p.val = (i 0).val; omega
  | ⟨1, _⟩ => show win0_0.index t (1 : Fin 2) * 128 + 1 * k.val = (i 1).val; omega

/-- Entry `(k, q)` of the block of `W` that any point reads is `W(k, q)`: the block is the whole array. -/
theorem w_block (c : Dev nD) (t : Fin cfg0.N) (k : Fin 128) (q : Fin 128) (i : S128x128.Idx)
    (h0 : (i 0).val = k.val) (h1 : (i 1).val = q.val) :
    iblk0 V c 1 t (ix2 k q) = V c main_arg2 i := by
  unfold iblk0
  show V c main_arg2 (((cfg0.win 1).blk t).view.emb (ix2 k q)) = V c main_arg2 i
  refine congrArg (V c main_arg2) ?_
  obtain ⟨-, -, e0, e1, -⟩ := block_indices t
  funext a; apply Fin.ext
  match a with
  | ⟨0, _⟩ => show win0_1.index t (0 : Fin 2) * 128 + 1 * k.val = (i 0).val; omega
  | ⟨1, _⟩ => show win0_1.index t (1 : Fin 2) * 128 + 1 * q.val = (i 1).val; omega

/-- WHAT POINT `t` WRITES BACK is row block `t` of `x·W`, of the arrays as the region finds them. -/
theorem flushed_eq (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero origin_eq]
  simp only [View.ld_unit_zero (S := S10000x128) origin_eq, View.ld_unit_zero (S := S128x128) origin_eq]
  funext j
  obtain ⟨p, q, rfl⟩ : ∃ (p : Fin 10000) (q : Fin 128), j = ix2 p q := ⟨j 0, j 1, eq_ix2 j⟩
  obtain ⟨-, -, -, -, e0, e1⟩ := block_indices t
  refine (body_entry (iblk0 V c 0 t) (iblk0 V c 1 t) p q).trans ?_
  show _ = Cert.Spec.mm (V c main_arg0) (V c main_arg2) (((cfg0.win 2).blk t).view.emb (ix2 p q))
  unfold Cert.Spec.mm
  refine Finset.sum_congr rfl fun k _ => ?_
  refine congrArg₂ (· * ·) ?_ ?_
  · refine x_block V c t p k _ ?_ rfl
    show win0_2.index t (0 : Fin 2) * 10000 + 1 * p.val = _
    omega
  · refine w_block V c t k q _ rfl ?_
    show win0_2.index t (1 : Fin 2) * 128 + 1 * q.val = _
    omega

/-- An entry of the result array lies in point `t`'s block iff each of its coordinates lies in the block's range. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v36).slice (win0_2.rect t)).set ↔ _
  rw [View.set_slice_whole, Rect.mem_set_unit]
  exact Iff.rfl

/-- The ten row blocks tile the result: row `r` lies in the block of point `r / 10000`. -/
theorem rows_covered (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have ht : (i 0).val / 10000 < grid0.N := by rw [N_0]; omega
  refine ⟨⟨(i 0).val / 10000, ht⟩, flush0_2 _, ?_⟩
  rw [mem_block]
  obtain ⟨-, -, -, -, e0, e1⟩ := block_indices ⟨(i 0).val / 10000, ht⟩
  have e0' : win0_2.index ⟨(i 0).val / 10000, ht⟩ (0 : Fin 2) = (i 0).val / 10000 := e0
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    omega

/-! ## The array after the region -/

/-- THE ARRAY the first product leaves: `x·W` of the two arrays the region reads, whole. -/
theorem final0 (c : Dev nD) :
    (dat0 (F := Ideal) V c).arrAt 2 cfg0.N = Cert.Spec.mm (V c main_arg0) (V c main_arg2) :=
  (dat0 (F := Ideal) V c).arrAt_eq_of_cover 2 (Cert.Spec.mm (V c main_arg0) (V c main_arg2))
    (fun t _ => flushed_eq V c t) rows_covered

end Cert.KernelIdeal.Region0

end
-- ==== Proof.Region1.lean ====
/-
  The second kernel region: bias and positive part over the aggregated first layer, ten row blocks of 10,000 nodes.
  Grid point `t` reads rows `10000·t ‥ 10000·t + 9999` of the aggregate and the one-row bias, whole, and writes the same
  rows of the result: entry `(p, q)` of its block is `max(a(10000·t + p, q) + b(0, q), 0)`. The ten blocks tile the
  array, so after the region the array is that function of the two arrays the region reads, whole.
-/
import proofs.«170396_j57758720196620_1_alg».proof.Proof.Gen.KernelIdeal.Frame
import proofs.«170396_j57758720196620_1_alg».proof.Proof.Spec
import Idealize.ShloMosaic.Lib.Pipeline.Value
import Idealize.ShloMosaic.Lib.ValueLayout
import Idealize.ShloMosaic.PureOps.Ideal.Laws
import Idealize.ShloMosaic.Lib.ValueIdx

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)

-- the TensorCore's buffer contents when the region is entered: any
variable (V : (c : Dev nD) → (b : Ref sig .tc) → Buf (Elt Ideal) ((c : Thread nD τ).loc b))

/-- The store's offsets `(0, 0)` are zero on both axes. -/
theorem zero_offsets : (![0, 0] : Fin 2 → Nat) = fun _ => 0 := funext fun a => by fin_cases a <;> rfl

/-- The three index maps over the ten grid points: point `t` takes row block `t` of the aggregate and of the
    result, column block `0`; the bias is its one block at every point. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's value at entry `(p, q)` of a block: the aggregate's entry plus the bias row's entry `q`, or `0` if
    that is negative. -/
theorem pay_apply (x0 : Vec Ideal S10000x128 .f32) (x1 : Vec Ideal S1x128 .f32) (p : Fin 10000) (q : Fin 128) :
    k1_pay1 (F := Ideal) x0 x1 (ix2 p q) = max (x0 (ix2 p q) + x1 (ix2 (0 : Fin 1) q)) 0 := by
  unfold k1_pay1
  show max ((shapeCast S10000x128 x0 shapeCasts_S10000x128_S10000x128 (ix2 p q) : EReal)
      + broadcastTo S10000x128 (shapeCast S1x128 x1 shapeCasts_S1x128_S1x128) broadcasts_S1x128_S10000x128 (ix2 p q))
      (Ideal.ofBits .f32 0x00000000#32) = _
  rw [shapeCast_self, shapeCast_self, broadcastTo_1b_ab_apply, Ideal.ofBits_zero_f32]

/-- WHAT POINT `t` WRITES BACK is block `t` of the bias-and-positive-part of the two arrays the region reads. -/
theorem flushed_eq (c : Dev nD) (t : Fin cfg1.N) :
    (dat1 (F := Ideal) V c).flushed 2 t
      = ((cfg1.win 2).blk t).view.read (Elt Ideal) (Cert.Spec.biasRelu (V c main_v49) (Cert.Spec.rowOf (V c main_v50))) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S1x128) zero_offsets]
  obtain ⟨e0, e1, e2, e3, e4, e5⟩ := block_indices t
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (ix2 p q)
    = Cert.Spec.biasRelu (V c main_v49) (Cert.Spec.rowOf (V c main_v50)) (((cfg1.win 2).blk t).view.emb (ix2 p q))
  refine (pay_apply _ _ p q).trans ?_
  -- the aggregate's block and the result's block sit at the same place in their arrays
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  -- the bias block is the whole one-row array, and the result's column is the block's column
  have h1 : ((cfg1.win 1).blk t).view.emb (ix2 (0 : Fin 1) q)
      = ix2 (0 : Fin 1) (⟨(((cfg1.win 2).blk t).view.emb (ix2 p q) 1).val, idx2_lt1 _⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  exact congrArg₂ (fun a b : EReal => max (a + b) 0) (congrArg (V c main_v49) h0) (congrArg (V c main_v50) h1)

/-- An index of the result array is in point `t`'s block exactly when, on each axis, its coordinate lies in the
    block's range: from the block index times the block's extent, for one extent. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v51).slice (win1_2.rect t)).set ↔ _
  rw [View.set_slice_whole, Rect.mem_set_unit]
  exact Iff.rfl

/-- The ten blocks tile the result: row `r` lies in the block of point `r / 10000`, and every column is in every
    block. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  have hlt : (i 0).val / 10000 < cfg1.N := by rw [hN]; omega
  obtain ⟨-, -, -, -, e4, e5⟩ := block_indices ⟨(i 0).val / 10000, hlt⟩
  refine ⟨⟨(i 0).val / 10000, hlt⟩, flush1_2 _, ?_⟩
  rw [mem_blk]
  intro a
  match a with
  | ⟨0, _⟩ =>
    show win1_2.index ⟨(i 0).val / 10000, hlt⟩ (0 : Fin 2) * 10000 ≤ (i 0).val
      ∧ (i 0).val < win1_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, hlt⟩ (1 : Fin 2) * 128 ≤ (i 1).val
      ∧ (i 1).val < win1_2.index ⟨(i 0).val / 10000, hlt⟩ (1 : Fin 2) * 128 + 128
    rw [e5]
    omega

/-- THE ARRAY the first bias-and-positive-part pass leaves. -/
theorem final1 (c : Dev nD) :
    (dat1 (F := Ideal) V c).arrAt 2 cfg1.N = Cert.Spec.biasRelu (V c main_v49) (Cert.Spec.rowOf (V c main_v50)) :=
  (dat1 (F := Ideal) V c).arrAt_eq_of_cover 2 (Cert.Spec.biasRelu (V c main_v49) (Cert.Spec.rowOf (V c main_v50)))
    (fun t _ => flushed_eq V c t) cover

end Cert.KernelIdeal.Region1

end
-- ==== Proof.Region2.lean ====
/-
  The third kernel region: the product of the hidden features with the two heads' weights laid side by side, ten row
  blocks of 10,000 nodes. Grid point `t` reads rows `10000·t ‥ 10000·t + 9999` of `h` and all of `W`, and writes the same
  rows of the result: entry `(p, q)` of its block is `∑ k, h(10000·t + p, k) · W(k, q)` (the change to the narrower float
  format on the way is the identity on extended reals, the accumulator is zero). The ten blocks tile the array, so after
  the region the array is `h·W`, whole.
-/
import proofs.«170396_j57758720196620_1_alg».proof.Proof.Gen.KernelIdeal.Frame
import proofs.«170396_j57758720196620_1_alg».proof.Proof.Spec
import Idealize.ShloMosaic.Lib.Pipeline.Value
import Idealize.ShloMosaic.Lib.ValueLayout
import Idealize.ShloMosaic.PureOps.Ideal.Laws
import Idealize.ShloMosaic.Lib.ValueIdx

set_option maxRecDepth 16384

noncomputable section

open scoped BigOperators

namespace Cert.KernelIdeal.Region2

open Idealize.ShloMosaic Idealize.ShloMosaic.TcCoe Idealize.ShloMosaic.ValueIdx Idealize.SL.Sem
open Cert.KernelIdeal Cert.KernelIdeal.Gen
open Idealize.ShloMosaic.Pipeline (Dat Cfg Window)

-- the TensorCore's buffer contents when the region is entered: any
variable (V : (c : Dev nD) → (b : Ref sig .tc) → Buf (Elt Ideal) ((c : Thread nD τ).loc b))

/-! ## The product's operand indices

The product contracts the left operand's columns against the right operand's rows, and has no batch axis: at the
result's entry `j` and the contraction position `k`, the left operand is read at `(j 0, k)` and the right one at
`(k, j 1)`. One statement per operand axis. -/

/-- Left operand, row axis: the result's row. -/
theorem lhs_axis0 (j : S10000x128.Idx) (k : dot_S10000x128_S128x128_S10000x128_1_0_0_1_n_n.contr.Idx) :
    (dot_S10000x128_S128x128_S10000x128_1_0_0_1_n_n.lhsIdx j k (0 : Fin 2)).val = (j (0 : Fin 2)).val := rfl

/-- Left operand, column axis: the contraction position. -/
theorem lhs_axis1 (j : S10000x128.Idx) (k : dot_S10000x128_S128x128_S10000x128_1_0_0_1_n_n.contr.Idx) :
    (dot_S10000x128_S128x128_S10000x128_1_0_0_1_n_n.lhsIdx j k (1 : Fin 2)).val = (k ⟨0, by decide⟩).val :=
  dot_S10000x128_S128x128_S10000x128_1_0_0_1_n_n.lhsIdx_val_of_single (cl := (1 : Fin 2)) rfl j k

/-- Right operand, row axis: the contraction position. -/
theorem rhs_axis0 (j : S10000x128.Idx) (k : dot_S10000x128_S128x128_S10000x128_1_0_0_1_n_n.contr.Idx) :
    (dot_S10000x128_S128x128_S10000x128_1_0_0_1_n_n.rhsIdx j k (0 : Fin 2)).val = (k ⟨0, by decide⟩).val :=
  dot_S10000x128_S128x128_S10000x128_1_0_0_1_n_n.rhsIdx_val_of_single (cr := (0 : Fin 2)) rfl j k

/-- Right operand, column axis: the result's column. -/
theorem rhs_axis1 (j : S10000x128.Idx) (k : dot_S10000x128_S128x128_S10000x128_1_0_0_1_n_n.contr.Idx) :
    (dot_S10000x128_S128x128_S10000x128_1_0_0_1_n_n.rhsIdx j k (1 : Fin 2)).val = (j (1 : Fin 2)).val := rfl

/-! ## One entry of the body's result -/

/-- The body loads and stores at offset `(0, 0)`; as a function of the axis that is the constant `0`. -/
theorem zero_offset : (![0, 0] : Fin 2 → Nat) = fun _ => 0 := funext fun a => by fin_cases a <;> rfl

/-- Entry `(p, q)` of what the body stores, from the two blocks it loaded. Each operand first passes through a reshaping
    to its own shape, which changes nothing, then through the narrowing, the identity on extended reals; the accumulator
    is zero. What is left is `∑ k, h(p, k) · w(k, q)` over the 128 shared coordinates. -/
theorem body_entry (h : Vec Ideal S10000x128 .f32) (w : Vec Ideal S128x128 .f32) (p : Fin 10000) (q : Fin 128) :
    k2_pay1 (F := Ideal) h w (ix2 p q) = ∑ k : Fin 128, h (ix2 p k) * w (ix2 k q) := by
  unfold k2_pay1
  simp only [shapeCast_self]
  refine (Ideal.matmul_constant_zero_apply dot_S10000x128_S128x128_S10000x128_1_0_0_1_n_n none _ _ (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have left_at : dot_S10000x128_S128x128_S10000x128_1_0_0_1_n_n.lhsIdx (ix2 p q)
      ((contrEquiv1 dot_S10000x128_S128x128_S10000x128_1_0_0_1_n_n 128 rfl rfl).symm k) = ix2 p k := by
    funext a; apply Fin.ext
    match a with
    | ⟨0, _⟩ => exact lhs_axis0 _ _
    | ⟨1, _⟩ => exact (lhs_axis1 _ _).trans hk
  have right_at : dot_S10000x128_S128x128_S10000x128_1_0_0_1_n_n.rhsIdx (ix2 p q)
      ((contrEquiv1 dot_S10000x128_S128x128_S10000x128_1_0_0_1_n_n 128 rfl rfl).symm k) = ix2 k q := by
    funext a; apply Fin.ext
    match a with
    | ⟨0, _⟩ => exact (rhs_axis0 _ _).trans hk
    | ⟨1, _⟩ => exact rhs_axis1 _ _
  show h (dot_S10000x128_S128x128_S10000x128_1_0_0_1_n_n.lhsIdx (ix2 p q) _)
    * w (dot_S10000x128_S128x128_S10000x128_1_0_0_1_n_n.rhsIdx (ix2 p q) _) = _
  rw [left_at, right_at]

/-! ## The blocks of the three arrays -/

/-- The region's index maps over its ten grid points, decided once: point `t` takes row block `t` of `h` and of the
    result, in block column 0, and the single block of `W`. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `(p, k)` of the block of `h` that point `t` reads is `h(10000·t + p, k)`. -/
theorem h_block (c : Dev nD) (t : Fin cfg2.N) (p : Fin 10000) (k : Fin 128) (i : S100000x128.Idx)
    (h0 : (i 0).val = t.val * 10000 + p.val) (h1 : (i 1).val = k.val) :
    iblk2 V c 0 t (ix2 p k) = V c main_v51 i := by
  unfold iblk2
  show V c main_v51 (((cfg2.win 0).blk t).view.emb (ix2 p k)) = V c main_v51 i
  refine congrArg (V c main_v51) ?_
  obtain ⟨e0, e1, -⟩ := block_indices t
  funext a; apply Fin.ext
  match a with
  | ⟨0, _⟩ => show win2_0.index t (0 : Fin 2) * 10000 + 1 * p.val = (i 0).val; omega
  | ⟨1, _⟩ => show win2_0.index t (1 : Fin 2) * 128 + 1 * k.val = (i 1).val; omega

/-- Entry `(k, q)` of the block of `W` that any point reads is `W(k, q)`: the block is the whole array. -/
theorem w_block (c : Dev nD) (t : Fin cfg2.N) (k : Fin 128) (q : Fin 128) (i : S128x128.Idx)
    (h0 : (i 0).val = k.val) (h1 : (i 1).val = q.val) :
    iblk2 V c 1 t (ix2 k q) = V c main_v52 i := by
  unfold iblk2
  show V c main_v52 (((cfg2.win 1).blk t).view.emb (ix2 k q)) = V c main_v52 i
  refine congrArg (V c main_v52) ?_
  obtain ⟨-, -, e0, e1, -⟩ := block_indices t
  funext a; apply Fin.ext
  match a with
  | ⟨0, _⟩ => show win2_1.index t (0 : Fin 2) * 128 + 1 * k.val = (i 0).val; omega
  | ⟨1, _⟩ => show win2_1.index t (1 : Fin 2) * 128 + 1 * q.val = (i 1).val; omega

/-- WHAT POINT `t` WRITES BACK is row block `t` of `h·W`, of the arrays as the region finds them. -/
theorem flushed_eq (c : Dev nD) (t : Fin cfg2.N) :
    (dat2 (F := Ideal) V c).flushed 2 t
      = ((cfg2.win 2).blk t).view.read (Elt Ideal) (Cert.Spec.mm (V c main_v51) (V c main_v52)) := by
  show (cfg2.win 2).cut (grid2.coords t) ((dat2 V c).after 2 t) = _
  rw [after2_2]
  unfold out2_2
  rw [View.canon_unit_zero zero_offset]
  simp only [View.ld_unit_zero (S := S10000x128) zero_offset, View.ld_unit_zero (S := S128x128) zero_offset]
  funext j
  obtain ⟨p, q, rfl⟩ : ∃ (p : Fin 10000) (q : Fin 128), j = ix2 p q := ⟨j 0, j 1, eq_ix2 j⟩
  obtain ⟨-, -, -, -, e0, e1⟩ := block_indices t
  refine (body_entry (iblk2 V c 0 t) (iblk2 V c 1 t) p q).trans ?_
  show _ = Cert.Spec.mm (V c main_v51) (V c main_v52) (((cfg2.win 2).blk t).view.emb (ix2 p q))
  unfold Cert.Spec.mm
  refine Finset.sum_congr rfl fun k _ => ?_
  refine congrArg₂ (· * ·) ?_ ?_
  · refine h_block V c t p k _ ?_ rfl
    show win2_2.index t (0 : Fin 2) * 10000 + 1 * p.val = _
    omega
  · refine w_block V c t k q _ rfl ?_
    show win2_2.index t (1 : Fin 2) * 128 + 1 * q.val = _
    omega

/-- An entry of the result array lies in point `t`'s block iff each of its coordinates lies in the block's range. -/
theorem mem_block (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v53).slice (win2_2.rect t)).set ↔ _
  rw [View.set_slice_whole, Rect.mem_set_unit]
  exact Iff.rfl

/-- The ten row blocks tile the result: row `r` lies in the block of point `r / 10000`. -/
theorem rows_covered (i : S100000x128.Idx) :
    ∃ t : Fin cfg2.N, (cfg2.win 2).flush t = true ∧ i ∈ ((cfg2.win 2).blk t).view.set := by
  have hi0 : (i 0).val < 100000 := idx2_lt0 i
  have hi1 : (i 1).val < 128 := idx2_lt1 i
  have ht : (i 0).val / 10000 < grid2.N := by rw [N_2]; omega
  refine ⟨⟨(i 0).val / 10000, ht⟩, flush2_2 _, ?_⟩
  rw [mem_block]
  obtain ⟨-, -, -, -, e0, e1⟩ := block_indices ⟨(i 0).val / 10000, ht⟩
  have e0' : win2_2.index ⟨(i 0).val / 10000, ht⟩ (0 : Fin 2) = (i 0).val / 10000 := e0
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    omega
  | ⟨1, _⟩ =>
    show win2_2.index ⟨(i 0).val / 10000, ht⟩ (1 : Fin 2) * 128 ≤ (i 1).val
      ∧ (i 1).val < win2_2.index ⟨(i 0).val / 10000, ht⟩ (1 : Fin 2) * 128 + 128
    omega

/-! ## The array after the region -/

/-- THE ARRAY the second product leaves: `h·W` of the two arrays the region reads, whole. -/
theorem final2 (c : Dev nD) :
    (dat2 (F := Ideal) V c).arrAt 2 cfg2.N = Cert.Spec.mm (V c main_v51) (V c main_v52) :=
  (dat2 (F := Ideal) V c).arrAt_eq_of_cover 2 (Cert.Spec.mm (V c main_v51) (V c main_v52))
    (fun t _ => flushed_eq V c t) rows_covered

end Cert.KernelIdeal.Region2

end
-- ==== Proof.Region3.lean ====
/-
  The fourth kernel region: the bias over the aggregated second layer, ten row blocks of 10,000 nodes. Grid point `t`
  reads rows `10000·t ‥ 10000·t + 9999` of the aggregate and the one-row bias, whole, and writes the same rows of the
  result: entry `(p, q)` of its block is `a(10000·t + p, q) + b(0, q)`. The ten blocks tile the array, so after the
  region the array is that function of the two arrays the region reads, whole.
-/
import proofs.«170396_j57758720196620_1_alg».proof.Proof.Gen.KernelIdeal.Frame
import proofs.«170396_j57758720196620_1_alg».proof.Proof.Spec
import Idealize.ShloMosaic.Lib.Pipeline.Value
import Idealize.ShloMosaic.Lib.ValueLayout
import Idealize.ShloMosaic.PureOps.Ideal.Laws
import Idealize.ShloMosaic.Lib.ValueIdx

set_option maxRecDepth 16384

noncomputable section

open scoped BigOperators

namespace Cert.KernelIdeal.Region3

open Idealize.ShloMosaic Idealize.ShloMosaic.TcCoe Idealize.ShloMosaic.ValueIdx Idealize.SL.Sem
open Cert.KernelIdeal Cert.KernelIdeal.Gen
open Idealize.ShloMosaic.Pipeline (Dat Cfg Window)

-- the TensorCore's buffer contents when the region is entered: any
variable (V : (c : Dev nD) → (b : Ref sig .tc) → Buf (Elt Ideal) ((c : Thread nD τ).loc b))

/-- The store's offsets `(0, 0)` are zero on both axes. -/
theorem zero_offsets : (![0, 0] : Fin 2 → Nat) = fun _ => 0 := funext fun a => by fin_cases a <;> rfl

/-- The three index maps over the ten grid points: point `t` takes row block `t` of the aggregate and of the
    result, column block `0`; the bias is its one block at every point. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's value at entry `(p, q)` of a block: the aggregate's entry plus the bias row's entry `q`. -/
theorem pay_apply (x0 : Vec Ideal S10000x128 .f32) (x1 : Vec Ideal S1x128 .f32) (p : Fin 10000) (q : Fin 128) :
    k3_pay1 (F := Ideal) x0 x1 (ix2 p q) = x0 (ix2 p q) + x1 (ix2 (0 : Fin 1) q) := by
  unfold k3_pay1
  show (shapeCast S10000x128 x0 shapeCasts_S10000x128_S10000x128 (ix2 p q) : EReal)
      + broadcastTo S10000x128 (shapeCast S1x128 x1 shapeCasts_S1x128_S1x128) broadcasts_S1x128_S10000x128 (ix2 p q) = _
  rw [shapeCast_self, shapeCast_self, broadcastTo_1b_ab_apply]

/-- WHAT POINT `t` WRITES BACK is block `t` of the aggregate with the bias added along its rows. -/
theorem flushed_eq (c : Dev nD) (t : Fin cfg3.N) :
    (dat3 (F := Ideal) V c).flushed 2 t
      = ((cfg3.win 2).blk t).view.read (Elt Ideal) (Cert.Spec.bias (V c main_v66) (Cert.Spec.rowOf (V c main_v68))) := by
  show (cfg3.win 2).cut (grid3.coords t) ((dat3 V c).after 2 t) = _
  rw [after3_2]
  unfold out3_2
  rw [View.canon_unit_zero zero_offsets]
  simp only [View.ld_unit_zero (S := S10000x128) zero_offsets, View.ld_unit_zero (S := S1x128) zero_offsets]
  obtain ⟨e0, e1, e2, e3, e4, e5⟩ := block_indices t
  funext j
  obtain ⟨p, q, rfl⟩ : ∃ (p : Fin 10000) (q : Fin 128), j = ix2 p q := ⟨j 0, j 1, eq_ix2 j⟩
  show k3_pay1 (F := Ideal) (iblk3 V c 0 t) (iblk3 V c 1 t) (ix2 p q)
    = Cert.Spec.bias (V c main_v66) (Cert.Spec.rowOf (V c main_v68)) (((cfg3.win 2).blk t).view.emb (ix2 p q))
  refine (pay_apply _ _ p q).trans ?_
  -- the aggregate's block and the result's block sit at the same place in their arrays
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 128 + 1 * q.val = win3_2.index t (1 : Fin 2) * 128 + 1 * q.val; omega
  -- the bias block is the whole one-row array, and the result's column is the block's column
  have h1 : ((cfg3.win 1).blk t).view.emb (ix2 (0 : Fin 1) q)
      = ix2 (0 : Fin 1) (⟨(((cfg3.win 2).blk t).view.emb (ix2 p q) 1).val, idx2_lt1 _⟩ : Fin 128) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  exact congrArg₂ (fun a b : EReal => a + b) (congrArg (V c main_v66) h0) (congrArg (V c main_v68) h1)

/-- An index of the result array is in point `t`'s block exactly when, on each axis, its coordinate lies in the
    block's range: from the block index times the block's extent, for one extent. -/
theorem mem_blk (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v69).slice (win3_2.rect t)).set ↔ _
  rw [View.set_slice_whole, Rect.mem_set_unit]
  exact Iff.rfl

/-- The ten blocks tile the result: row `r` lies in the block of point `r / 10000`, and every column is in every
    block. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  have hlt : (i 0).val / 10000 < cfg3.N := by rw [hN]; omega
  obtain ⟨-, -, -, -, e4, e5⟩ := block_indices ⟨(i 0).val / 10000, hlt⟩
  refine ⟨⟨(i 0).val / 10000, hlt⟩, flush3_2 _, ?_⟩
  rw [mem_blk]
  intro a
  match a with
  | ⟨0, _⟩ =>
    show win3_2.index ⟨(i 0).val / 10000, hlt⟩ (0 : Fin 2) * 10000 ≤ (i 0).val
      ∧ (i 0).val < win3_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win3_2.index ⟨(i 0).val / 10000, hlt⟩ (1 : Fin 2) * 128 ≤ (i 1).val
      ∧ (i 1).val < win3_2.index ⟨(i 0).val / 10000, hlt⟩ (1 : Fin 2) * 128 + 128
    rw [e5]
    omega

/-- THE ARRAY the closing bias pass leaves. -/
theorem final3 (c : Dev nD) :
    (dat3 (F := Ideal) V c).arrAt 2 cfg3.N = Cert.Spec.bias (V c main_v66) (Cert.Spec.rowOf (V c main_v68)) :=
  (dat3 (F := Ideal) V c).arrAt_eq_of_cover 2 (Cert.Spec.bias (V c main_v66) (Cert.Spec.rowOf (V c main_v68)))
    (fun t _ => flushed_eq V c t) cover

end Cert.KernelIdeal.Region3

end
-- ==== Proof.LibRowScatter.lean ====
/-
  An accumulating row scatter, read at an index at the exact instance.

  `segment_sum` / `.at[dst].add` of update rows `upd : [n, C]` into `x : [N, C]` prints as the scatter with an add
  body whose operand axis 0 is the inserted, index-addressed axis and whose axis 1 is the one update window axis:
  update row `e` is added, whole, into operand row `idx[e, 0]` — the index read signed and NOT clamped, an update
  whose row falls outside the operand being dropped. At the exact instance the result at `(r, j)` is therefore the
  operand's entry plus the sum, over the update rows `e` whose index names `r`, of the update's entry `(e, j)`:
  column `j` of the result depends on column `j` of the updates only. Stated for any record with these dimension
  numbers (each hypothesis a `rfl` at a printed record), any extents, any index width.
-/
import Idealize.ShloMosaic.PureOps.Ideal
import Idealize.ShloMosaic.Lib.ValueIdx

noncomputable section

open scoped BigOperators

namespace Idealize.ShloMosaic.RowOps

open Idealize.ShloMosaic Idealize.ShloMosaic.ValueIdx

/-! ## The dimension numbers' derived axis lists

With the operand's axis 0 inserted, the update's axis 1 its one window axis and the index vector on the scatter
indices' axis 1, the operand's kept axes are `[1]` and the update's scatter axes are `[0]`. -/

namespace ScatterRows

section Axes
variable {N C n : Nat} (d : ScatterDims ⟨2, ![N, C]⟩ ⟨2, ![n, 1]⟩ ⟨2, ![n, C]⟩)

/-- The operand's axes that are not inserted: axis 1 alone. -/
theorem sKept_eq (hiw : d.insertedWindowDims = [0]) : d.sKept = [1] := by
  show Shape.kept _ d.insertedWindowDims = _
  rw [hiw]; rfl

/-- The update's axes that are not window axes: axis 0 alone. -/
theorem uScatter_eq (huw : d.updateWindowDims = [1]) : d.uScatter = [0] := by
  show Shape.kept _ d.updateWindowDims = _
  rw [huw]; rfl

/-! ## Start and window coordinate, axis by axis -/

/-- On the inserted axis 0 the window coordinate is `0`: that axis is not among the kept ones. -/
theorem window0 (hiw : d.insertedWindowDims = [0]) (q : (⟨2, ![n, C]⟩ : Shape).Idx) : d.window q 0 = 0 := by
  unfold ScatterDims.window
  rw [dif_neg (by rw [sKept_eq d hiw]; simp)]

/-- On axis 1, the one kept axis, the window coordinate is the update's coordinate on its one window axis: its
    column. -/
theorem window1 (huw : d.updateWindowDims = [1]) (hiw : d.insertedWindowDims = [0]) (e : Fin n) (j : Fin C) :
    d.window (ix2 e j) 1 = j.val := by
  unfold ScatterDims.window
  rw [dif_pos (by rw [sKept_eq d hiw]; simp)]
  have h : ∀ (k : Nat) (hk : k < d.updateWindowDims.length), d.updateWindowDims[k] = 1 := by
    rw [huw]; intro k hk; simp at hk; subst hk; rfl
  rw [h]
  rfl

/-- The scatter-indices index update `(e, j)` reads its start from is `(e, 0)`: the update's scatter coordinate
    (its row) on axis 0, and the one component `0` on the index vector's axis. -/
theorem siIdx_eq (huw : d.updateWindowDims = [1]) (hsd : d.scatterDimsToOperandDims = [0]) (hivd : d.indexVectorDim = 1)
    (e : Fin n) (j : Fin C) (c : Fin d.scatterDimsToOperandDims.length) :
    d.siIdx (ix2 e j) c = ix2 e (0 : Fin 1) := by
  funext b
  match b with
  | ⟨0, _⟩ =>
    -- not the index vector's axis: the update's coordinate on its scatter axis in position 0, which is axis 0
    unfold ScatterDims.siIdx
    rw [dif_neg (by rw [hivd]; simp)]
    unfold ScatterDims.siCoord
    apply Fin.ext
    simp only [Fin.val_cast]
    have h : ∀ (k : Nat) (hk : k < d.uScatter.length), d.uScatter[k] = 0 := by
      rw [uScatter_eq d huw]; intro k hk; simp at hk; subst hk; rfl
    rw [h]; rfl
  | ⟨1, _⟩ =>
    -- the index vector's axis: the component's number, and the map has one component
    unfold ScatterDims.siIdx
    rw [dif_pos (by rw [hivd])]
    apply Fin.ext
    have h1 : d.scatterDimsToOperandDims.length = 1 := by rw [hsd]; rfl
    have := c.isLt
    show c.val = 0
    omega

/-- On axis 0, the one axis the map names, the start is the scatter index of the update's row, read signed. -/
theorem start0 {w : Nat} (huw : d.updateWindowDims = [1]) (hsd : d.scatterDimsToOperandDims = [0]) (hivd : d.indexVectorDim = 1)
    (idx : IVec ⟨2, ![n, 1]⟩ w) (e : Fin n) (j : Fin C) :
    d.start (ix2 e j) idx 0 = (idx (ix2 e (0 : Fin 1))).toInt := by
  unfold ScatterDims.start
  rw [dif_pos (by rw [hsd]; simp), siIdx_eq d huw hsd hivd]

/-- On axis 1, which the map does not name, the start is `0`. -/
theorem start1 {w : Nat} (hsd : d.scatterDimsToOperandDims = [0])
    (idx : IVec ⟨2, ![n, 1]⟩ w) (q : (⟨2, ![n, C]⟩ : Shape).Idx) :
    d.start q idx 1 = 0 := by
  unfold ScatterDims.start
  rw [dif_neg (by rw [hsd]; simp)]

/-! ## Where an update lands -/

/-- Update `(e, j')` lands at operand position `(r, j)` exactly when its row's scatter index, read signed, is `r`
    and its column is `j`: start plus window coordinate is that index on axis 0 and the column on axis 1, and the
    update is kept exactly when both are inside the operand. -/
theorem resultIdx_iff {w : Nat} (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) (r : Fin N) (j : Fin C) :
    d.resultIdx? (ix2 e j') idx = some (ix2 r j) ↔ (idx (ix2 e (0 : Fin 1))).toInt = (r.val : ℤ) ∧ j' = j := by
  have s0 : d.start (ix2 e j') idx 0 + (d.window (ix2 e j') 0 : ℤ) = (idx (ix2 e (0 : Fin 1))).toInt := by
    rw [start0 d huw hsd hivd, window0 d hiw]; simp
  have s1 : d.start (ix2 e j') idx 1 + (d.window (ix2 e j') 1 : ℤ) = (j'.val : ℤ) := by
    rw [start1 d hsd, window1 d huw hiw]; simp
  unfold ScatterDims.resultIdx?
  constructor
  · intro h
    split at h
    · next hall =>
      have h' := Option.some.inj h
      have h0 : (d.start (ix2 e j') idx 0 + (d.window (ix2 e j') 0 : ℤ)).toNat = r.val := congrArg Fin.val (congrFun h' 0)
      have h1 : (d.start (ix2 e j') idx 1 + (d.window (ix2 e j') 1 : ℤ)).toNat = j.val := congrArg Fin.val (congrFun h' 1)
      have a0 := (hall 0).1
      rw [s0] at h0 a0; rw [s1] at h1
      exact ⟨by omega, Fin.ext (by omega)⟩
    · cases h
  · rintro ⟨hr, hj⟩
    have hall : ∀ a, 0 ≤ d.start (ix2 e j') idx a + d.window (ix2 e j') a
        ∧ d.start (ix2 e j') idx a + d.window (ix2 e j') a < (⟨2, ![N, C]⟩ : Shape).size a := by
      intro a
      match a with
      | ⟨0, _⟩ =>
        show 0 ≤ d.start (ix2 e j') idx 0 + (d.window (ix2 e j') 0 : ℤ)
          ∧ d.start (ix2 e j') idx 0 + (d.window (ix2 e j') 0 : ℤ) < (N : ℤ)
        rw [s0, hr]; have := r.isLt; omega
      | ⟨1, _⟩ =>
        show 0 ≤ d.start (ix2 e j') idx 1 + (d.window (ix2 e j') 1 : ℤ)
          ∧ d.start (ix2 e j') idx 1 + (d.window (ix2 e j') 1 : ℤ) < (C : ℤ)
        rw [s1]; have := j'.isLt; omega
    rw [dif_pos hall]
    congr 1
    funext a
    match a with
    | ⟨0, _⟩ =>
      apply Fin.ext
      show (d.start (ix2 e j') idx 0 + (d.window (ix2 e j') 0 : ℤ)).toNat = r.val
      rw [s0, hr]; simp
    | ⟨1, _⟩ =>
      apply Fin.ext
      show (d.start (ix2 e j') idx 1 + (d.window (ix2 e j') 1 : ℤ)).toNat = j.val
      rw [s1, ← hj]; simp

end Axes

end ScatterRows

open ScatterRows in
/-- THE ACCUMULATING ROW SCATTER READ AT `(r, j)`, at the exact instance: the operand's entry plus the sum of
    column `j` of the update rows whose index, read signed, is `r`. -/
theorem scatterAdd_rows_apply {N C n w : Nat}
    (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (r : Fin N) (j : Fin C) :
    Ideal.hostScatterAdd d x idx upd (ix2 r j)
      = x (ix2 r j) + ∑ e ∈ Finset.univ.filter (fun e : Fin n => (idx (ix2 e (0 : Fin 1))).toInt = (r.val : ℤ)), upd (ix2 e j) := by
  unfold Ideal.hostScatterAdd
  congr 1
  -- an update index lands at `(r, j)` exactly when its row's index is `r` and its column is `j`
  have hmem : ∀ q : (⟨2, ![n, C]⟩ : Shape).Idx, d.resultIdx? q idx = some (ix2 r j)
      ↔ (idx (ix2 (q 0 : Fin n) (0 : Fin 1))).toInt = (r.val : ℤ) ∧ (q 1 : Fin C) = j := by
    intro q
    have hq := eq_ix2 q
    rw [hq]
    exact resultIdx_iff d huw hiw hsd hivd idx _ _ r j
  -- so the update indices that land there are, through `q ↦ q 0` and `e ↦ (e, j)`, the rows whose index is `r`
  refine Finset.sum_nbij' (fun q => (q 0 : Fin n)) (fun e => ix2 e j) ?_ ?_ ?_ ?_ ?_
  · intro q hq
    exact Finset.mem_filter.2 ⟨Finset.mem_univ _, ((hmem q).1 (Finset.mem_filter.1 hq).2).1⟩
  · intro e he
    exact Finset.mem_filter.2 ⟨Finset.mem_univ _,
      (resultIdx_iff d huw hiw hsd hivd idx e j r j).2 ⟨(Finset.mem_filter.1 he).2, rfl⟩⟩
  · intro q hq
    have h1 := ((hmem q).1 (Finset.mem_filter.1 hq).2).2
    show ix2 (q 0 : Fin n) j = q
    rw [← h1]
    exact (eq_ix2 q).symm
  · intro e _
    rfl
  · intro q hq
    have h1 := ((hmem q).1 (Finset.mem_filter.1 hq).2).2
    show upd q = upd (ix2 (q 0 : Fin n) j)
    rw [← h1]
    exact congrArg upd (eq_ix2 q)

end Idealize.ShloMosaic.RowOps

end
-- ==== Proof.OpsAggr.lean ====
/-
  The aggregation and the product with the weights, as the two programs compute them on the host, ARE the layer's
  functions of Spec.lean. The accumulating scatter, into zeros, of gathered rows scaled by the edge weights reads at
  `(r, j)` as the sum over the edges with destination `r` of column `j` of the source's row times the weight — the
  scatter and the gather each read at an index (the two general lemmas), the broadcasts of the index columns and of
  the weights read through. The host's matrix product reads at `(r, j)` as the sum over the contracted axis. The
  dimension-number records and the shape facts are parameters (each hypothesis a `rfl` at a printed record, each shape
  fact any proof), so one statement serves both programs' spellings and both column counts.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.StackMember
import proofs.«170396_j57758720196620_1_alg».proof.Proof.LibRowGather
import proofs.«170396_j57758720196620_1_alg».proof.Proof.LibRowScatter
import proofs.«170396_j57758720196620_1_alg».proof.Proof.Spec

noncomputable section

open scoped BigOperators

namespace Cert.Spec

open Idealize.ShloMosaic Idealize.ShloMosaic.ValueIdx Idealize.ShloMosaic.RowOps

/-- A per-edge vector kept as a column reads, at `(e, 0)`, the vector at `e` (the edge axis is not a unit axis, so the
    coordinate passes through). -/
theorem edgeCol_apply (hc : SE.BroadcastsInDim SE1 ![0]) {β : Type} (v : SE.Idx → β) (e : Fin 1700000) :
    broadcastInDim SE1 ![0] hc v (ix2 e (0 : Fin 1)) = v (ix1 e) := by
  refine broadcastInDim_apply _ hc v _ (ix1 e) (fun a => ?_)
  obtain rfl : a = 0 := Subsingleton.elim _ _
  rw [if_neg (by decide)]
  rfl

/-- A per-edge column laid along the rows reads, at `(e, j)`, the column at `(e, 0)`: the row coordinate passes
    through, the column's unit axis reads coordinate `0`. -/
theorem alongRows_apply {C : Nat} (h2 : SE1.BroadcastsInDim (SE2 C) ![0, 1]) {β : Type} (v : SE1.Idx → β)
    (e : Fin 1700000) (j : Fin C) :
    broadcastInDim (SE2 C) ![0, 1] h2 v (ix2 e j) = v (ix2 e (0 : Fin 1)) := by
  refine broadcastInDim_apply _ h2 v _ (ix2 e (0 : Fin 1)) (fun a => ?_)
  match a with
  | ⟨0, _⟩ => rw [if_neg (by show ¬ ((1700000 : Nat) = 1); decide)]; rfl
  | ⟨1, _⟩ => rw [if_pos (by rfl)]; rfl

/-- THE AGGREGATION, as both programs compute it: rows gathered at the source column, scaled by the edge weights
    broadcast along the rows, scattered with addition into zeros at the destination column. -/
theorem aggr_of_ops {C : Nat}
    (ds : ScatterDims (SN C) SE1 (SE2 C))
    (huw : ds.updateWindowDims = [1]) (hiw : ds.insertedWindowDims = [0]) (hsd : ds.scatterDimsToOperandDims = [0])
    (hsiv : ds.indexVectorDim = 1)
    (dg : GatherDims (SN C) SE1 (SE2 C))
    (hoff : dg.offsetDims = [1]) (hcoll : dg.collapsedSliceDims = [0]) (hob : dg.operandBatchingDims = [])
    (hsb : dg.startIndicesBatchingDims = []) (hsim : dg.startIndexMap = [0]) (hgiv : dg.indexVectorDim = 1)
    (hss : dg.sliceSizes = ![1, C])
    (h0 : S0.BroadcastsInDim (SN C) ![]) (hc : SE.BroadcastsInDim SE1 ![0]) (h2 : SE1.BroadcastsInDim (SE2 C) ![0, 1])
    (y : FVec Ideal (SN C) .f32) (dst src : IVec SE 32) (nrm : FVec Ideal SE .f32) :
    Host.scatterAdd (F := Ideal) ds (broadcastInDim (SN C) ![] h0 (constant (F := Ideal) S0 .f32 0x00000000#32))
        (broadcastInDim SE1 ![0] hc dst)
        (mulf (Host.gather dg y (broadcastInDim SE1 ![0] hc src))
          (broadcastInDim (SE2 C) ![0, 1] h2 (broadcastInDim SE1 ![0] hc nrm)))
      = aggr y dst src nrm := by
  -- Every step below is a rewrite by a stated equation; nothing is left to unfolding, so the sum over the edges is
  -- carried along as a term and never evaluated.
  funext i
  obtain ⟨r, j, rfl⟩ : ∃ (r : Fin 100000) (j : Fin C), i = ix2 r j := ⟨i 0, i 1, eq_ix2 i⟩
  -- the scatter at (r, j): the operand's entry, which is the zero constant, plus the sum over the edges whose
  -- destination is r of the update's entry (e, j)
  rw [Host.scatterAdd, Ideal.hostScatterAdd_def, scatterAdd_rows_apply ds huw hiw hsd hsiv,
    broadcastInDim_apply ![] h0 _ (ix2 r j) ix0 (fun a => a.elim0), constant_apply, Ideal.ofBits_zero_f32, zero_add, aggr]
  refine Finset.sum_congr ?_ ?_
  · -- the same edges: the destination column at (e, 0) is the destination vector at e
    ext e
    simp only [Finset.mem_filter, Finset.mem_univ, true_and]
    rw [edgeCol_apply hc dst e]
    exact Iff.rfl
  · -- the same term: the gathered row of the clamped source, column j, times the weight of edge e
    intro e _
    rw [mulf_apply, gather_rows_apply (by decide) dg hoff hcoll hob hsb hsim hgiv hss, alongRows_apply h2,
      edgeCol_apply hc nrm, edgeCol_apply hc src]
    rfl

/-- THE PRODUCT WITH THE WEIGHTS, as the host computes it. -/
theorem dot_eq_mm {C : Nat} (x : FVec Ideal (SN 128) .f32) (w : FVec Ideal (SW C) .f32) :
    Host.dotGeneral (F := Ideal) (DotDims.plain 100000 128 C) none x w = mm x w := by
  funext i
  obtain ⟨r, j, rfl⟩ : ∃ (r : Fin 100000) (j : Fin C), i = ix2 r j := ⟨i 0, i 1, eq_ix2 i⟩
  -- the plain product at (r, j) is the sum over the contracted coordinate; the layer's function is that sum at the
  -- coordinates of (r, j)
  rw [StackMember.dotGeneral_plain_apply]
  rfl

end Cert.Spec

end
-- ==== Proof.OpsLayout.lean ====
/-
  The layout and pointwise host operations around a layer, read at an index, ARE the small functions of Spec.lean:
  an add of a bias laid as a row and broadcast down the rows is `bias`; with the maximum against a broadcast zero it
  is `biasRelu`; a concatenate of two 64-column blocks along the columns is `catCols`, of two 64-entry vectors `cat1`;
  a unit-stride slice of 64 columns from column `c0` is `colSlice c0`; a vector re-laid as a one-row matrix keeps its
  entries. The shape facts are parameters (any proof), so one statement serves both programs' spellings.
-/
import Idealize.ShloMosaic.PureOps.Ideal
import Idealize.ShloMosaic.PureOps.Ideal.Laws
import Idealize.ShloMosaic.Lib.ValueIdx
import Idealize.ShloMosaic.Lib.Pipeline.Value
import proofs.«170396_j57758720196620_1_alg».proof.Proof.LibRowGather
import proofs.«170396_j57758720196620_1_alg».proof.Proof.Spec

noncomputable section

open scoped BigOperators

namespace Cert.Spec

open Idealize.ShloMosaic Idealize.ShloMosaic.ValueIdx Idealize.ShloMosaic.RowOps

/-- A vector re-laid as a one-row matrix keeps its entries. -/
theorem rowOf_shapeCast {C : Nat} (h : (SB C).ShapeCasts (SR C)) (b : (SB C).Idx → EReal) :
    rowOf (shapeCast (SR C) b h) = b := by
  funext i
  obtain ⟨j, rfl⟩ : ∃ j : Fin C, i = ix1 j := ⟨i 0, eq_ix1 i⟩
  -- entry `j` of the vector sits at row-major position `j`, and so does entry `(0, j)` of the one-row matrix
  show shapeCast (SR C) b h (ix2 (0 : Fin 1) j) = b (ix1 j)
  refine shapeCast_apply b h _ (ix1 j) ?_
  rw [Shape.rowMajor_val_one, Shape.rowMajor_val_two]
  show j.val = 0 * C + j.val
  omega

/-- A `C`-entry vector laid as a row and the row broadcast down `N` rows reads, at `(r, j)`, entry `j` of the vector
    (also when `C = 1`, where the one column is a unit axis and its coordinate is `0 = j`). -/
theorem rowBroadcast_apply {C : Nat} (h1 : (SB C).BroadcastsInDim (SR C) ![1]) (h2 : (SR C).BroadcastsInDim (SN C) ![0, 1])
    (b : (SB C).Idx → EReal) (r : Fin 100000) (j : Fin C) :
    broadcastInDim (SN C) ![0, 1] h2 (broadcastInDim (SR C) ![1] h1 b) (ix2 r j) = b (ix1 j) := by
  refine (broadcastInDim_apply _ h2 _ (ix2 r j) (ix2 (0 : Fin 1) j) fun ax => ?_).trans
    (broadcastInDim_apply _ h1 b (ix2 (0 : Fin 1) j) (ix1 j) fun ax => ?_)
  · match ax with
    | ⟨0, _⟩ => exact (if_pos rfl).symm
    | ⟨1, _⟩ =>
      show j.val = if C = 1 then 0 else j.val
      split
      · have := j.isLt; omega
      · rfl
  · match ax with
    | ⟨0, _⟩ =>
      show j.val = if C = 1 then 0 else j.val
      split
      · have := j.isLt; omega
      · rfl

/-- THE BIAS, as the host adds it: the vector laid as a row, the row broadcast down the rows. -/
theorem bias_of_ops {C : Nat} (h1 : (SB C).BroadcastsInDim (SR C) ![1]) (h2 : (SR C).BroadcastsInDim (SN C) ![0, 1])
    (a : FVec Ideal (SN C) .f32) (b : FVec Ideal (SB C) .f32) :
    addf a (broadcastInDim (SN C) ![0, 1] h2 (broadcastInDim (SR C) ![1] h1 b)) = bias a b := by
  funext i
  obtain ⟨r, j, rfl⟩ : ∃ (r : Fin 100000) (j : Fin C), i = ix2 r j := ⟨i 0, i 1, eq_ix2 i⟩
  rw [addf_apply, rowBroadcast_apply h1 h2 b r j]
  rfl

/-- THE BIAS AND THE POSITIVE PART, as the host computes them: the maximum with a broadcast zero. -/
theorem biasRelu_of_ops (h1 : (SB 128).BroadcastsInDim (SR 128) ![1]) (h2 : (SR 128).BroadcastsInDim (SN 128) ![0, 1])
    (h0 : S0.BroadcastsInDim (SN 128) ![])
    (a : FVec Ideal (SN 128) .f32) (b : FVec Ideal (SB 128) .f32) :
    maximumf (addf a (broadcastInDim (SN 128) ![0, 1] h2 (broadcastInDim (SR 128) ![1] h1 b)))
        (broadcastInDim (SN 128) ![] h0 (constant (F := Ideal) S0 .f32 0x00000000#32))
      = biasRelu a b := by
  funext i
  obtain ⟨r, j, rfl⟩ : ∃ (r : Fin 100000) (j : Fin 128), i = ix2 r j := ⟨i 0, i 1, eq_ix2 i⟩
  -- the broadcast scalar reads its one entry, the zero word, which is the extended real `0`
  have hz : broadcastInDim (SN 128) ![] h0 (constant (F := Ideal) S0 .f32 0x00000000#32) (ix2 r j) = (0 : EReal) := by
    rw [broadcastInDim_apply _ h0 _ (ix2 r j) ix0 fun ax => ax.elim0, constant_apply]
    exact Ideal.ofBits_zero_f32
  rw [maximumf_apply, addf_apply, rowBroadcast_apply h1 h2 b r j, hz]
  rfl

/-- Two weight matrices concatenated along the columns. -/
theorem catCols_of_ops (h : Shape.Concatenates [SW 64, SW 64] (SW 128) 1) (a b : (SW 64).Idx → EReal) :
    concatenate (SW 128) 1 [⟨SW 64, a⟩, ⟨SW 64, b⟩] h = catCols a b := by
  funext i
  obtain ⟨r, j, rfl⟩ : ∃ (r : Fin 128) (j : Fin 128), i = ix2 r j := ⟨i 0, i 1, eq_ix2 i⟩
  by_cases hj : j.val < 64
  · -- a column below 64 falls in the first block, at the same coordinates
    have e : catCols a b (ix2 r j) = a (ix2 r (⟨j.val, hj⟩ : Fin 64)) := by
      unfold catCols
      exact dif_pos hj
    rw [e]
    refine concatenate_pair_apply_left 1 a b h (ix2 r j) rfl (ix2 r (⟨j.val, hj⟩ : Fin 64)) fun ax => ?_
    match ax with
    | ⟨0, _⟩ => rfl
    | ⟨1, _⟩ => rfl
  · -- a column from 64 on falls in the second block, 64 columns to the left
    have hj' : j.val - 64 < 64 := by have := j.isLt; omega
    have e : catCols a b (ix2 r j) = b (ix2 r (⟨j.val - 64, hj'⟩ : Fin 64)) := by
      unfold catCols
      exact dif_neg hj
    rw [e]
    refine concatenate_pair_apply_right 1 a b h (ix2 r j) rfl rfl (ix2 r (⟨j.val - 64, hj'⟩ : Fin 64)) (fun ax => ?_) ?_
    · match ax with
      | ⟨0, _⟩ => exact fun _ => rfl
      | ⟨1, _⟩ => exact fun hne => absurd rfl hne
    · show j.val - 64 + 64 = j.val
      omega

/-- Two biases concatenated. -/
theorem cat1_of_ops (h : Shape.Concatenates [SB 64, SB 64] (SB 128) 0) (a b : (SB 64).Idx → EReal) :
    concatenate (SB 128) 0 [⟨SB 64, a⟩, ⟨SB 64, b⟩] h = cat1 a b := by
  funext i
  obtain ⟨j, rfl⟩ : ∃ j : Fin 128, i = ix1 j := ⟨i 0, eq_ix1 i⟩
  by_cases hj : j.val < 64
  · -- an entry below 64 falls in the first piece, at the same position
    have e : cat1 a b (ix1 j) = a (ix1 (⟨j.val, hj⟩ : Fin 64)) := by
      unfold cat1
      exact dif_pos hj
    rw [e]
    refine concatenate_pair_apply_left 0 a b h (ix1 j) rfl (ix1 (⟨j.val, hj⟩ : Fin 64)) fun ax => ?_
    match ax with
    | ⟨0, _⟩ => rfl
  · -- an entry from 64 on falls in the second piece, 64 positions earlier
    have hj' : j.val - 64 < 64 := by have := j.isLt; omega
    have e : cat1 a b (ix1 j) = b (ix1 (⟨j.val - 64, hj'⟩ : Fin 64)) := by
      unfold cat1
      exact dif_neg hj
    rw [e]
    refine concatenate_pair_apply_right 0 a b h (ix1 j) rfl rfl (ix1 (⟨j.val - 64, hj'⟩ : Fin 64)) (fun ax => ?_) ?_
    · match ax with
      | ⟨0, _⟩ => exact fun hne => absurd rfl hne
    · show j.val - 64 + 64 = j.val
      omega

/-- A unit-stride slice of 64 columns from column `c0`. -/
theorem colSlice_of_ops (c0 : Nat) (hc : c0 + 64 ≤ 128) (h : (SN 128).Slices ![0, c0] (SN 64)) (y : (SN 128).Idx → EReal) :
    extractStridedSlice (SN 64) ![0, c0] y h = colSlice c0 hc y := by
  funext i
  obtain ⟨r, j, rfl⟩ : ∃ (r : Fin 100000) (j : Fin 64), i = ix2 r j := ⟨i 0, i 1, eq_ix2 i⟩
  -- row `r` stays, column `j` of the slice is column `c0 + j` of the matrix
  have hlt : c0 + j.val < 128 := by have := j.isLt; omega
  refine (extractStridedSlice_apply ![0, c0] y h (ix2 r j) (ix2 r (⟨c0 + j.val, hlt⟩ : Fin 128)) fun ax => ?_).trans rfl
  match ax with
  | ⟨0, _⟩ => exact (Nat.zero_add _).symm
  | ⟨1, _⟩ => rfl

end Cert.Spec

end
-- ==== Proof.KChainB.lean ====
/-
  The kernel program's two results as the layer functions of Spec.lean applied to its arguments. Reading the run's
  last boundary back through the program: the results are the two column slices of the fourth region's array; that
  array is the bias pass over the second aggregation, which reads the third region's array (the hidden features times
  the two heads' weights side by side); the hidden features are the second region's array, the bias-and-positive-part
  pass over the first aggregation of the first region's array `x·W1`. Each region's array is its whole-array function
  of what the region read (the four region lemmas), each host composite the function it is (the aggregation, the
  concatenates, the row re-layout, the slices), and the edge data the three functions of the edge-index array.
-/
import proofs.«170396_j57758720196620_1_alg».proof.Proof.KChainA
import proofs.«170396_j57758720196620_1_alg».proof.Proof.Region0
import proofs.«170396_j57758720196620_1_alg».proof.Proof.Region1
import proofs.«170396_j57758720196620_1_alg».proof.Proof.Region2
import proofs.«170396_j57758720196620_1_alg».proof.Proof.Region3
import proofs.«170396_j57758720196620_1_alg».proof.Proof.OpsAggr
import proofs.«170396_j57758720196620_1_alg».proof.Proof.OpsLayout

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Edges

variable (m : (ℓ : Loc nD τ sig) → Buf (Elt Ideal) ℓ) (ρ : Dev nD → PrngReg)

/-- The first layer's output, as the kernel program computes it. -/
def hiddenK (c : Dev nD) : (Cert.Spec.SN 128).Idx → EReal :=
  Cert.Spec.biasRelu
    (Cert.Spec.aggr (Cert.Spec.mm (m ((c : Thread nD τ).loc main_arg0)) (m ((c : Thread nD τ).loc main_arg2)))
      (dstE (E m c)) (srcE (E m c)) (nrmE (F := Ideal) (E m c)))
    (m ((c : Thread nD τ).loc main_arg3))

/-- The fused second layer: both heads' columns side by side. -/
def fusedK (c : Dev nD) : (Cert.Spec.SN 128).Idx → EReal :=
  Cert.Spec.bias
    (Cert.Spec.aggr (Cert.Spec.mm (hiddenK m c) (Cert.Spec.catCols (m ((c : Thread nD τ).loc main_arg4)) (m ((c : Thread nD τ).loc main_arg6))))
      (dstE (E m c)) (srcE (E m c)) (nrmE (F := Ideal) (E m c)))
    (Cert.Spec.cat1 (m ((c : Thread nD τ).loc main_arg5)) (m ((c : Thread nD τ).loc main_arg7)))

/-- The first result buffer holds columns `0‥63` of the fourth region's array: the last stretch's first slice. -/
theorem W11_v70 (c : Dev nD) :
    W11 m ρ c (Proc.devRef .tc main_v70)
      = extractStridedSlice S100000x64 ![0, 0] (W10 m ρ c (Proc.devRef .tc main_v69)) slices_S100000x128_S100000x64_0_0 := by
  show StableHlo.after hostOps4 _ (Proc.devRef .tc main_v70) = _
  after_results

/-- The second result buffer holds columns `64‥127` of the fourth region's array: the last stretch's second slice. -/
theorem W11_v71 (c : Dev nD) :
    W11 m ρ c (Proc.devRef .tc main_v71)
      = extractStridedSlice S100000x64 ![0, 64] (W10 m ρ c (Proc.devRef .tc main_v69)) slices_S100000x128_S100000x64_0_64 := by
  show StableHlo.after hostOps4 _ (Proc.devRef .tc main_v71) = _
  after_results

/-- The fourth region's array is the bias pass over the two arrays the region read at its entry. -/
theorem W10_v69 (c : Dev nD) :
    W10 m ρ c (Proc.devRef .tc main_v69)
      = Cert.Spec.bias (V9 m ρ c main_v66) (Cert.Spec.rowOf (V9 m ρ c main_v68)) :=
  (W10_arr m ρ c 2).trans (Cert.KernelIdeal.Region3.final3 (V9 m ρ) c)

/-- The third region's array is the product of the two arrays the region read at its entry. -/
theorem W8_v53 (c : Dev nD) :
    W8 m ρ c (Proc.devRef .tc main_v53) = Cert.Spec.mm (V7 m ρ c main_v51) (V7 m ρ c main_v52) :=
  (W8_arr m ρ c 2).trans (Cert.KernelIdeal.Region2.final2 (V7 m ρ) c)

/-- The first region's array is the product of the node features with the first layer's weights, as launched. -/
theorem W4_v36 (c : Dev nD) :
    W4 m ρ c (Proc.devRef .tc main_v36)
      = Cert.Spec.mm (m ((c : Thread nD τ).loc main_arg0)) (m ((c : Thread nD τ).loc main_arg2)) := by
  refine (W4_arr m ρ c 2).trans ((Cert.KernelIdeal.Region0.final0 (V3 m ρ) c).trans ?_)
  show Cert.Spec.mm (W3 m ρ c (Proc.devRef .tc main_arg0)) (W3 m ρ c (Proc.devRef .tc main_arg2)) = _
  rw [W3_arg0, W3_arg2]

/-- The hidden features at the third region's entry: the one operation between the second and third regions writes
    another buffer, so they are still the second region's array, the bias-and-positive-part pass over what it read. -/
theorem V7_v51 (c : Dev nD) :
    V7 m ρ c main_v51 = Cert.Spec.biasRelu (V5 m ρ c main_v49) (Cert.Spec.rowOf (V5 m ρ c main_v50)) := by
  have h1 : W7 m ρ c (Proc.devRef .tc main_v51) = W6 m ρ c (Proc.devRef .tc main_v51) :=
    StableHlo.after_of_forall_not_mem (b := Proc.devRef .tc main_v51) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h1.trans ((W6_arr m ρ c 2).trans (Cert.KernelIdeal.Region1.final1 (V5 m ρ) c))

/-- The weights the third region reads: the two heads' weight arguments, as launched, side by side. -/
theorem V7_v52 (c : Dev nD) :
    V7 m ρ c main_v52 = Cert.Spec.catCols (m ((c : Thread nD τ).loc main_arg4)) (m ((c : Thread nD τ).loc main_arg6)) := by
  show StableHlo.after hostOps2 _ (Proc.devRef .tc main_v52) = _
  after_results
  rw [W6_arg4, W6_arg6]
  exact Cert.Spec.catCols_of_ops _ _ _

set_option maxHeartbeats 4000000 in
/-- The first aggregation, at the second region's entry: the accumulating scatter of the gathered rows of `x·W1`,
    scaled by the edge weights, at the edge data computed before the first region. -/
theorem V5_v49 (c : Dev nD) :
    V5 m ρ c main_v49
      = Cert.Spec.aggr (Cert.Spec.mm (m ((c : Thread nD τ).loc main_arg0)) (m ((c : Thread nD τ).loc main_arg2)))
          (dstE (E m c)) (srcE (E m c)) (nrmE (F := Ideal) (E m c)) := by
  show StableHlo.after hostOps1 _ (Proc.devRef .tc main_v49) = _
  after_results
  rw [W4_dst, W4_src, W4_nrm, W4_v36]
  exact Cert.Spec.aggr_of_ops (C := 128) scatter_S100000x128_S1700000x1_S1700000x128_1_0_0_1 rfl rfl rfl rfl
    gather_S100000x128_S1700000x1_S1700000x128_1_0_n_n_0_1_1128 rfl rfl rfl rfl rfl rfl rfl
    bcast_S_S100000x128 bcast_S1700000_S1700000x1_0 bcast_S1700000x1_S1700000x128_0_1 _ _ _ _

set_option maxHeartbeats 4000000 in
/-- The first layer's bias at the second region's entry: the bias argument, as launched, laid as one row. -/
theorem V5_v50 (c : Dev nD) :
    Cert.Spec.rowOf (V5 m ρ c main_v50) = m ((c : Thread nD τ).loc main_arg3) := by
  show Cert.Spec.rowOf (C := 128) (StableHlo.after hostOps1 (W4 m ρ c) (Proc.devRef .tc main_v50)) = _
  after_results
  rw [W4_arg3]
  exact Cert.Spec.rowOf_shapeCast (C := 128) _ _

set_option maxHeartbeats 4000000 in
/-- The second aggregation, at the fourth region's entry: the accumulating scatter of the gathered rows of the third
    region's array, scaled by the edge weights, at the same edge data. -/
theorem V9_v66 (c : Dev nD) :
    V9 m ρ c main_v66
      = Cert.Spec.aggr (Cert.Spec.mm (V7 m ρ c main_v51) (V7 m ρ c main_v52))
          (dstE (E m c)) (srcE (E m c)) (nrmE (F := Ideal) (E m c)) := by
  show StableHlo.after hostOps3 _ (Proc.devRef .tc main_v66) = _
  after_results
  rw [W8_dst, W8_src, W8_nrm, W8_v53]
  exact Cert.Spec.aggr_of_ops (C := 128) scatter_S100000x128_S1700000x1_S1700000x128_1_0_0_1 rfl rfl rfl rfl
    gather_S100000x128_S1700000x1_S1700000x128_1_0_n_n_0_1_1128 rfl rfl rfl rfl rfl rfl rfl
    bcast_S_S100000x128 bcast_S1700000_S1700000x1_0 bcast_S1700000x1_S1700000x128_0_1 _ _ _ _

set_option maxHeartbeats 4000000 in
/-- The second layer's bias at the fourth region's entry: the two heads' bias arguments, as launched, end to end,
    laid as one row. -/
theorem V9_v68 (c : Dev nD) :
    Cert.Spec.rowOf (V9 m ρ c main_v68)
      = Cert.Spec.cat1 (m ((c : Thread nD τ).loc main_arg5)) (m ((c : Thread nD τ).loc main_arg7)) := by
  show Cert.Spec.rowOf (C := 128) (StableHlo.after hostOps3 (W8 m ρ c) (Proc.devRef .tc main_v68)) = _
  after_results
  rw [W8_arg5, W8_arg7]
  exact (Cert.Spec.rowOf_shapeCast (C := 128) _ _).trans (Cert.Spec.cat1_of_ops _ _ _)

/-- The hidden features the third region reads are the first layer's output. -/
theorem V7_v51_hidden (c : Dev nD) : V7 m ρ c main_v51 = hiddenK m c := by
  rw [V7_v51, V5_v49, V5_v50]
  rfl

/-- The fourth region's array is the fused second layer. -/
theorem W10_v69_fused (c : Dev nD) : W10 m ρ c (Proc.devRef .tc main_v69) = fusedK m c := by
  rw [W10_v69, V9_v66, V9_v68, V7_v52, V7_v51_hidden]
  rfl

/-- THE FIRST RESULT: columns `0‥63` of the fused second layer. -/
theorem value70 (c : Dev nD) :
    W11 m ρ c (Proc.devRef .tc main_v70) = Cert.Spec.colSlice 0 (by decide) (fusedK m c) := by
  rw [W11_v70, W10_v69_fused]
  exact Cert.Spec.colSlice_of_ops 0 (by decide) _ _

/-- THE SECOND RESULT: columns `64‥127` of the fused second layer. -/
theorem value71 (c : Dev nD) :
    W11 m ρ c (Proc.devRef .tc main_v71) = Cert.Spec.colSlice 64 (by decide) (fusedK m c) := by
  rw [W11_v71, W10_v69_fused]
  exact Cert.Spec.colSlice_of_ops 64 (by decide) _ _

end Cert.KernelIdeal.Chain

end
-- ==== Proof.EdgesR.lean ====
/-
  The graph's edge data as functions of the edge-index array `e : [2, 1600000]`, in the reference program's spelling:
  the destination words (row 1 followed by the self loops `0 ‥ 99999`), the source words (row 0 followed by the
  self loops), a word wrapped into the node range the way jnp normalises a negative index (`v + 100000` where
  `v < 0`), each node's degree (ones scattered with addition at the wrapped destinations), its inverse square root
  where the degree is positive and zero elsewhere, and an edge's weight: the product of that quantity at its two
  ends. Both programs compute exactly these, by the same operations; the certificate never opens them.
-/
import proofs.«170396_j57758720196620_1_alg».proof.Proof.Gen.ReferenceIdeal

noncomputable section

namespace Cert.ReferenceIdeal.Edges

open Idealize.ShloMosaic Cert.ReferenceIdeal Cert.ReferenceIdeal.Gen

variable {F : FTy → Type} [FloatOps F]

/-- Row `q` of the edge-index array followed by the self loops. -/
def rowLoops (q : Fin 2) (e : IVec S2x1600000 32) : IVec S1700000 32 :=
  match q with
  | 0 => concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0
  | 1 => concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The source words. -/
abbrev srcRaw (e : IVec S2x1600000 32) : IVec S1700000 32 := rowLoops 0 e
/-- The destination words. -/
abbrev dstE (e : IVec S2x1600000 32) : IVec S1700000 32 := rowLoops 1 e

/-- A word wrapped into the node range: `v + 100000` where `v` is negative. -/
def wrap (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- The source words as the gathers read them. -/
abbrev srcE (e : IVec S2x1600000 32) : IVec S1700000 32 := wrap (srcRaw e)

/-- Each node's degree: ones scattered with addition at the wrapped destinations. -/
def degE (e : IVec S2x1600000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (wrap (dstE e))) (broadcastInDim S1700000 ![] bcast_S_S1700000 (constant S_ .f32 0x3F800000#32))

/-- The inverse square root of the degree where it is positive, zero elsewhere. -/
def dinvE (e : IVec S2x1600000 32) : FVec F S100000 .f32 :=
  select (cmpf (F := F) .ogt (degE e) (broadcastInDim S100000 ![] bcast_S_S100000 (constant S_ .f32 0x00000000#32))) (Host.rsqrt (degE e)) (broadcastInDim S100000 ![] bcast_S_S100000 (id (constant S_ .f32 0x00000000#32)))

/-- An edge's weight: that quantity at its source times that quantity at its destination. -/
def nrmE (e : IVec S2x1600000 32) : FVec F S1700000 .f32 :=
  mulf (Host.gather gather_S100000_S1700000x1_S1700000_n_0_n_n_0_1_1 (dinvE e) (broadcastInDim S1700000x1 ![0] bcast_S1700000_S1700000x1_0 (wrap (srcRaw e)))) (Host.gather gather_S100000_S1700000x1_S1700000_n_0_n_n_0_1_1 (dinvE e) (broadcastInDim S1700000x1 ![0] bcast_S1700000_S1700000x1_0 (wrap (dstE e))))

end Cert.ReferenceIdeal.Edges

end
-- ==== Proof.RefSide.lean ====
/-
  The reference's two results, read as the layer functions of Spec.lean applied to its arguments: the first layer
  `relu(A·(x·W1) + b1)`, then for each head `A·(h·W) + b`, with the edge data (destinations, wrapped sources, weights)
  carried as the opaque functions of the edge-index array. Nothing is computed here: each composite of host
  operations in the run's result term is replaced by the function it is (the aggregation, the product, the bias).
-/
import proofs.«170396_j57758720196620_1_alg».proof.Proof.RefRun
import proofs.«170396_j57758720196620_1_alg».proof.Proof.EdgesR
import proofs.«170396_j57758720196620_1_alg».proof.Proof.OpsAggr
import proofs.«170396_j57758720196620_1_alg».proof.Proof.OpsLayout

set_option maxRecDepth 16384

noncomputable section

namespace Cert.ReferenceIdeal.RefSide

open Idealize.ShloMosaic Idealize.ShloMosaic.TcCoe Idealize.SL.Sem
open Cert.ReferenceIdeal Cert.ReferenceIdeal.Edges

variable (m : (ℓ : Loc nD τ sig) → Buf (Elt Ideal) ℓ)

/-- The first layer's output, as the reference computes it. -/
def hidden (c : Dev nD) : (Cert.Spec.SN 128).Idx → EReal :=
  Cert.Spec.biasRelu
    (Cert.Spec.aggr (Cert.Spec.mm (m ((c.tc : Thread nD τ).loc main_arg0)) (m ((c.tc : Thread nD τ).loc main_arg2)))
      (dstE (m ((c.tc : Thread nD τ).loc main_arg1))) (srcE (m ((c.tc : Thread nD τ).loc main_arg1)))
      (nrmE (F := Ideal) (m ((c.tc : Thread nD τ).loc main_arg1))))
    (m ((c.tc : Thread nD τ).loc main_arg3))

/-- THE FIRST RESULT: the head on `Wmu`, `bmu`. -/
theorem out0_eq (c : Dev nD) :
    Cert.ReferenceIdeal.ValueP.res_main_v70 (F := Ideal) m c
      = Cert.Spec.bias
          (Cert.Spec.aggr (Cert.Spec.mm (hidden m c) (m ((c.tc : Thread nD τ).loc main_arg4)))
            (dstE (m ((c.tc : Thread nD τ).loc main_arg1))) (srcE (m ((c.tc : Thread nD τ).loc main_arg1)))
            (nrmE (F := Ideal) (m ((c.tc : Thread nD τ).loc main_arg1))))
          (m ((c.tc : Thread nD τ).loc main_arg5)) := by
  unfold Cert.ReferenceIdeal.ValueP.res_main_v70
  -- the run's term, with the edge data's repeated subterms read as the functions of the edge-index array they are
  show addf (Host.scatterAdd (F := Ideal) scatter_S100000x64_S1700000x1_S1700000x64_1_0_0_1 (broadcastInDim S100000x64 ![] Gen.bcast_S_S100000x64 (constant (F := Ideal) S_ .f32 0x00000000#32)) (broadcastInDim S1700000x1 ![0] Gen.bcast_S1700000_S1700000x1_0 (dstE (m ((c.tc : Thread nD τ).loc main_arg1)))) (mulf (Host.gather gather_S100000x64_S1700000x1_S1700000x64_1_0_n_n_0_1_164 (Host.dotGeneral (F := Ideal) dot_S100000x128_S128x64_S100000x64_1_0_0_1_n_n none (maximumf (addf (Host.scatterAdd (F := Ideal) scatter_S100000x128_S1700000x1_S1700000x128_1_0_0_1 (broadcastInDim S100000x128 ![] Gen.bcast_S_S100000x128 (constant (F := Ideal) S_ .f32 0x00000000#32)) (broadcastInDim S1700000x1 ![0] Gen.bcast_S1700000_S1700000x1_0 (dstE (m ((c.tc : Thread nD τ).loc main_arg1)))) (mulf (Host.gather gather_S100000x128_S1700000x1_S1700000x128_1_0_n_n_0_1_1128 (Host.dotGeneral (F := Ideal) dot_S100000x128_S128x128_S100000x128_1_0_0_1_n_n none (m ((c.tc : Thread nD τ).loc main_arg0)) (m ((c.tc : Thread nD τ).loc main_arg2))) (broadcastInDim S1700000x1 ![0] Gen.bcast_S1700000_S1700000x1_0 (srcE (m ((c.tc : Thread nD τ).loc main_arg1))))) (broadcastInDim S1700000x128 ![0, 1] Gen.bcast_S1700000x1_S1700000x128_0_1 (broadcastInDim S1700000x1 ![0] Gen.bcast_S1700000_S1700000x1_0 (nrmE (F := Ideal) (m ((c.tc : Thread nD τ).loc main_arg1))))))) (broadcastInDim S100000x128 ![0, 1] Gen.bcast_S1x128_S100000x128_0_1 (broadcastInDim S1x128 ![1] Gen.bcast_S128_S1x128_1 (m ((c.tc : Thread nD τ).loc main_arg3))))) (broadcastInDim S100000x128 ![] Gen.bcast_S_S100000x128 (constant (F := Ideal) S_ .f32 0x00000000#32))) (m ((c.tc : Thread nD τ).loc main_arg4))) (broadcastInDim S1700000x1 ![0] Gen.bcast_S1700000_S1700000x1_0 (srcE (m ((c.tc : Thread nD τ).loc main_arg1))))) (broadcastInDim S1700000x64 ![0, 1] Gen.bcast_S1700000x1_S1700000x64_0_1 (broadcastInDim S1700000x1 ![0] Gen.bcast_S1700000_S1700000x1_0 (nrmE (F := Ideal) (m ((c.tc : Thread nD τ).loc main_arg1))))))) (broadcastInDim S100000x64 ![0, 1] Gen.bcast_S1x64_S100000x64_0_1 (broadcastInDim S1x64 ![1] Gen.bcast_S64_S1x64_1 (m ((c.tc : Thread nD τ).loc main_arg5)))) = _
  -- the first layer's product with the weights
  have h1 : (Host.dotGeneral (F := Ideal) dot_S100000x128_S128x128_S100000x128_1_0_0_1_n_n none (m ((c.tc : Thread nD τ).loc main_arg0)) (m ((c.tc : Thread nD τ).loc main_arg2)))
      = Cert.Spec.mm (m ((c.tc : Thread nD τ).loc main_arg0)) (m ((c.tc : Thread nD τ).loc main_arg2)) := Cert.Spec.dot_eq_mm _ _
  -- the aggregation at 128 columns, of any operand
  have hA128 : ∀ y : FVec Ideal S100000x128 .f32, (Host.scatterAdd (F := Ideal) scatter_S100000x128_S1700000x1_S1700000x128_1_0_0_1 (broadcastInDim S100000x128 ![] Gen.bcast_S_S100000x128 (constant (F := Ideal) S_ .f32 0x00000000#32)) (broadcastInDim S1700000x1 ![0] Gen.bcast_S1700000_S1700000x1_0 (dstE (m ((c.tc : Thread nD τ).loc main_arg1)))) (mulf (Host.gather gather_S100000x128_S1700000x1_S1700000x128_1_0_n_n_0_1_1128 y (broadcastInDim S1700000x1 ![0] Gen.bcast_S1700000_S1700000x1_0 (srcE (m ((c.tc : Thread nD τ).loc main_arg1))))) (broadcastInDim S1700000x128 ![0, 1] Gen.bcast_S1700000x1_S1700000x128_0_1 (broadcastInDim S1700000x1 ![0] Gen.bcast_S1700000_S1700000x1_0 (nrmE (F := Ideal) (m ((c.tc : Thread nD τ).loc main_arg1)))))))
      = Cert.Spec.aggr y (dstE (m ((c.tc : Thread nD τ).loc main_arg1))) (srcE (m ((c.tc : Thread nD τ).loc main_arg1))) (nrmE (F := Ideal) (m ((c.tc : Thread nD τ).loc main_arg1))) :=
    fun y => Cert.Spec.aggr_of_ops (C := 128) scatter_S100000x128_S1700000x1_S1700000x128_1_0_0_1 rfl rfl rfl rfl
      gather_S100000x128_S1700000x1_S1700000x128_1_0_n_n_0_1_1128 rfl rfl rfl rfl rfl rfl rfl
      Gen.bcast_S_S100000x128 Gen.bcast_S1700000_S1700000x1_0 Gen.bcast_S1700000x1_S1700000x128_0_1 y _ _ _
  -- the first layer's bias and positive part
  have hBR : ∀ a : FVec Ideal S100000x128 .f32, (maximumf (addf a (broadcastInDim S100000x128 ![0, 1] Gen.bcast_S1x128_S100000x128_0_1 (broadcastInDim S1x128 ![1] Gen.bcast_S128_S1x128_1 (m ((c.tc : Thread nD τ).loc main_arg3))))) (broadcastInDim S100000x128 ![] Gen.bcast_S_S100000x128 (constant (F := Ideal) S_ .f32 0x00000000#32)))
      = Cert.Spec.biasRelu a (m ((c.tc : Thread nD τ).loc main_arg3)) :=
    fun a => Cert.Spec.biasRelu_of_ops Gen.bcast_S128_S1x128_1 Gen.bcast_S1x128_S100000x128_0_1 Gen.bcast_S_S100000x128 a _
  -- the head's product with its weights, of any operand
  have h2 : ∀ x : FVec Ideal S100000x128 .f32, (Host.dotGeneral (F := Ideal) dot_S100000x128_S128x64_S100000x64_1_0_0_1_n_n none x (m ((c.tc : Thread nD τ).loc main_arg4)))
      = Cert.Spec.mm x (m ((c.tc : Thread nD τ).loc main_arg4)) := fun x => Cert.Spec.dot_eq_mm _ _
  -- the aggregation at 64 columns, of any operand
  have hA64 : ∀ y : FVec Ideal S100000x64 .f32, (Host.scatterAdd (F := Ideal) scatter_S100000x64_S1700000x1_S1700000x64_1_0_0_1 (broadcastInDim S100000x64 ![] Gen.bcast_S_S100000x64 (constant (F := Ideal) S_ .f32 0x00000000#32)) (broadcastInDim S1700000x1 ![0] Gen.bcast_S1700000_S1700000x1_0 (dstE (m ((c.tc : Thread nD τ).loc main_arg1)))) (mulf (Host.gather gather_S100000x64_S1700000x1_S1700000x64_1_0_n_n_0_1_164 y (broadcastInDim S1700000x1 ![0] Gen.bcast_S1700000_S1700000x1_0 (srcE (m ((c.tc : Thread nD τ).loc main_arg1))))) (broadcastInDim S1700000x64 ![0, 1] Gen.bcast_S1700000x1_S1700000x64_0_1 (broadcastInDim S1700000x1 ![0] Gen.bcast_S1700000_S1700000x1_0 (nrmE (F := Ideal) (m ((c.tc : Thread nD τ).loc main_arg1)))))))
      = Cert.Spec.aggr y (dstE (m ((c.tc : Thread nD τ).loc main_arg1))) (srcE (m ((c.tc : Thread nD τ).loc main_arg1))) (nrmE (F := Ideal) (m ((c.tc : Thread nD τ).loc main_arg1))) :=
    fun y => Cert.Spec.aggr_of_ops (C := 64) scatter_S100000x64_S1700000x1_S1700000x64_1_0_0_1 rfl rfl rfl rfl
      gather_S100000x64_S1700000x1_S1700000x64_1_0_n_n_0_1_164 rfl rfl rfl rfl rfl rfl rfl
      Gen.bcast_S_S100000x64 Gen.bcast_S1700000_S1700000x1_0 Gen.bcast_S1700000x1_S1700000x64_0_1 y _ _ _
  -- the head's bias
  have hB : ∀ a : FVec Ideal S100000x64 .f32, addf a (broadcastInDim S100000x64 ![0, 1] Gen.bcast_S1x64_S100000x64_0_1 (broadcastInDim S1x64 ![1] Gen.bcast_S64_S1x64_1 (m ((c.tc : Thread nD τ).loc main_arg5))))
      = Cert.Spec.bias a (m ((c.tc : Thread nD τ).loc main_arg5)) :=
    fun a => Cert.Spec.bias_of_ops Gen.bcast_S64_S1x64_1 Gen.bcast_S1x64_S100000x64_0_1 a _
  rw [h1, hA128, hBR, h2, hA64, hB]
  rfl

/-- THE SECOND RESULT: the head on `Wls`, `bls`. -/
theorem out1_eq (c : Dev nD) :
    Cert.ReferenceIdeal.ValueP.res_main_v87 (F := Ideal) m c
      = Cert.Spec.bias
          (Cert.Spec.aggr (Cert.Spec.mm (hidden m c) (m ((c.tc : Thread nD τ).loc main_arg6)))
            (dstE (m ((c.tc : Thread nD τ).loc main_arg1))) (srcE (m ((c.tc : Thread nD τ).loc main_arg1)))
            (nrmE (F := Ideal) (m ((c.tc : Thread nD τ).loc main_arg1))))
          (m ((c.tc : Thread nD τ).loc main_arg7)) := by
  unfold Cert.ReferenceIdeal.ValueP.res_main_v87
  -- the run's term, with the edge data's repeated subterms read as the functions of the edge-index array they are
  show addf (Host.scatterAdd (F := Ideal) scatter_S100000x64_S1700000x1_S1700000x64_1_0_0_1 (broadcastInDim S100000x64 ![] Gen.bcast_S_S100000x64 (constant (F := Ideal) S_ .f32 0x00000000#32)) (broadcastInDim S1700000x1 ![0] Gen.bcast_S1700000_S1700000x1_0 (dstE (m ((c.tc : Thread nD τ).loc main_arg1)))) (mulf (Host.gather gather_S100000x64_S1700000x1_S1700000x64_1_0_n_n_0_1_164 (Host.dotGeneral (F := Ideal) dot_S100000x128_S128x64_S100000x64_1_0_0_1_n_n none (maximumf (addf (Host.scatterAdd (F := Ideal) scatter_S100000x128_S1700000x1_S1700000x128_1_0_0_1 (broadcastInDim S100000x128 ![] Gen.bcast_S_S100000x128 (constant (F := Ideal) S_ .f32 0x00000000#32)) (broadcastInDim S1700000x1 ![0] Gen.bcast_S1700000_S1700000x1_0 (dstE (m ((c.tc : Thread nD τ).loc main_arg1)))) (mulf (Host.gather gather_S100000x128_S1700000x1_S1700000x128_1_0_n_n_0_1_1128 (Host.dotGeneral (F := Ideal) dot_S100000x128_S128x128_S100000x128_1_0_0_1_n_n none (m ((c.tc : Thread nD τ).loc main_arg0)) (m ((c.tc : Thread nD τ).loc main_arg2))) (broadcastInDim S1700000x1 ![0] Gen.bcast_S1700000_S1700000x1_0 (srcE (m ((c.tc : Thread nD τ).loc main_arg1))))) (broadcastInDim S1700000x128 ![0, 1] Gen.bcast_S1700000x1_S1700000x128_0_1 (broadcastInDim S1700000x1 ![0] Gen.bcast_S1700000_S1700000x1_0 (nrmE (F := Ideal) (m ((c.tc : Thread nD τ).loc main_arg1))))))) (broadcastInDim S100000x128 ![0, 1] Gen.bcast_S1x128_S100000x128_0_1 (broadcastInDim S1x128 ![1] Gen.bcast_S128_S1x128_1 (m ((c.tc : Thread nD τ).loc main_arg3))))) (broadcastInDim S100000x128 ![] Gen.bcast_S_S100000x128 (constant (F := Ideal) S_ .f32 0x00000000#32))) (m ((c.tc : Thread nD τ).loc main_arg6))) (broadcastInDim S1700000x1 ![0] Gen.bcast_S1700000_S1700000x1_0 (srcE (m ((c.tc : Thread nD τ).loc main_arg1))))) (broadcastInDim S1700000x64 ![0, 1] Gen.bcast_S1700000x1_S1700000x64_0_1 (broadcastInDim S1700000x1 ![0] Gen.bcast_S1700000_S1700000x1_0 (nrmE (F := Ideal) (m ((c.tc : Thread nD τ).loc main_arg1))))))) (broadcastInDim S100000x64 ![0, 1] Gen.bcast_S1x64_S100000x64_0_1 (broadcastInDim S1x64 ![1] Gen.bcast_S64_S1x64_1 (m ((c.tc : Thread nD τ).loc main_arg7)))) = _
  -- the first layer's product with the weights
  have h1 : (Host.dotGeneral (F := Ideal) dot_S100000x128_S128x128_S100000x128_1_0_0_1_n_n none (m ((c.tc : Thread nD τ).loc main_arg0)) (m ((c.tc : Thread nD τ).loc main_arg2)))
      = Cert.Spec.mm (m ((c.tc : Thread nD τ).loc main_arg0)) (m ((c.tc : Thread nD τ).loc main_arg2)) := Cert.Spec.dot_eq_mm _ _
  -- the aggregation at 128 columns, of any operand
  have hA128 : ∀ y : FVec Ideal S100000x128 .f32, (Host.scatterAdd (F := Ideal) scatter_S100000x128_S1700000x1_S1700000x128_1_0_0_1 (broadcastInDim S100000x128 ![] Gen.bcast_S_S100000x128 (constant (F := Ideal) S_ .f32 0x00000000#32)) (broadcastInDim S1700000x1 ![0] Gen.bcast_S1700000_S1700000x1_0 (dstE (m ((c.tc : Thread nD τ).loc main_arg1)))) (mulf (Host.gather gather_S100000x128_S1700000x1_S1700000x128_1_0_n_n_0_1_1128 y (broadcastInDim S1700000x1 ![0] Gen.bcast_S1700000_S1700000x1_0 (srcE (m ((c.tc : Thread nD τ).loc main_arg1))))) (broadcastInDim S1700000x128 ![0, 1] Gen.bcast_S1700000x1_S1700000x128_0_1 (broadcastInDim S1700000x1 ![0] Gen.bcast_S1700000_S1700000x1_0 (nrmE (F := Ideal) (m ((c.tc : Thread nD τ).loc main_arg1)))))))
      = Cert.Spec.aggr y (dstE (m ((c.tc : Thread nD τ).loc main_arg1))) (srcE (m ((c.tc : Thread nD τ).loc main_arg1))) (nrmE (F := Ideal) (m ((c.tc : Thread nD τ).loc main_arg1))) :=
    fun y => Cert.Spec.aggr_of_ops (C := 128) scatter_S100000x128_S1700000x1_S1700000x128_1_0_0_1 rfl rfl rfl rfl
      gather_S100000x128_S1700000x1_S1700000x128_1_0_n_n_0_1_1128 rfl rfl rfl rfl rfl rfl rfl
      Gen.bcast_S_S100000x128 Gen.bcast_S1700000_S1700000x1_0 Gen.bcast_S1700000x1_S1700000x128_0_1 y _ _ _
  -- the first layer's bias and positive part
  have hBR : ∀ a : FVec Ideal S100000x128 .f32, (maximumf (addf a (broadcastInDim S100000x128 ![0, 1] Gen.bcast_S1x128_S100000x128_0_1 (broadcastInDim S1x128 ![1] Gen.bcast_S128_S1x128_1 (m ((c.tc : Thread nD τ).loc main_arg3))))) (broadcastInDim S100000x128 ![] Gen.bcast_S_S100000x128 (constant (F := Ideal) S_ .f32 0x00000000#32)))
      = Cert.Spec.biasRelu a (m ((c.tc : Thread nD τ).loc main_arg3)) :=
    fun a => Cert.Spec.biasRelu_of_ops Gen.bcast_S128_S1x128_1 Gen.bcast_S1x128_S100000x128_0_1 Gen.bcast_S_S100000x128 a _
  -- the head's product with its weights, of any operand
  have h2 : ∀ x : FVec Ideal S100000x128 .f32, (Host.dotGeneral (F := Ideal) dot_S100000x128_S128x64_S100000x64_1_0_0_1_n_n none x (m ((c.tc : Thread nD τ).loc main_arg6)))
      = Cert.Spec.mm x (m ((c.tc : Thread nD τ).loc main_arg6)) := fun x => Cert.Spec.dot_eq_mm _ _
  -- the aggregation at 64 columns, of any operand
  have hA64 : ∀ y : FVec Ideal S100000x64 .f32, (Host.scatterAdd (F := Ideal) scatter_S100000x64_S1700000x1_S1700000x64_1_0_0_1 (broadcastInDim S100000x64 ![] Gen.bcast_S_S100000x64 (constant (F := Ideal) S_ .f32 0x00000000#32)) (broadcastInDim S1700000x1 ![0] Gen.bcast_S1700000_S1700000x1_0 (dstE (m ((c.tc : Thread nD τ).loc main_arg1)))) (mulf (Host.gather gather_S100000x64_S1700000x1_S1700000x64_1_0_n_n_0_1_164 y (broadcastInDim S1700000x1 ![0] Gen.bcast_S1700000_S1700000x1_0 (srcE (m ((c.tc : Thread nD τ).loc main_arg1))))) (broadcastInDim S1700000x64 ![0, 1] Gen.bcast_S1700000x1_S1700000x64_0_1 (broadcastInDim S1700000x1 ![0] Gen.bcast_S1700000_S1700000x1_0 (nrmE (F := Ideal) (m ((c.tc : Thread nD τ).loc main_arg1)))))))
      = Cert.Spec.aggr y (dstE (m ((c.tc : Thread nD τ).loc main_arg1))) (srcE (m ((c.tc : Thread nD τ).loc main_arg1))) (nrmE (F := Ideal) (m ((c.tc : Thread nD τ).loc main_arg1))) :=
    fun y => Cert.Spec.aggr_of_ops (C := 64) scatter_S100000x64_S1700000x1_S1700000x64_1_0_0_1 rfl rfl rfl rfl
      gather_S100000x64_S1700000x1_S1700000x64_1_0_n_n_0_1_164 rfl rfl rfl rfl rfl rfl rfl
      Gen.bcast_S_S100000x64 Gen.bcast_S1700000_S1700000x1_0 Gen.bcast_S1700000x1_S1700000x64_0_1 y _ _ _
  -- the head's bias
  have hB : ∀ a : FVec Ideal S100000x64 .f32, addf a (broadcastInDim S100000x64 ![0, 1] Gen.bcast_S1x64_S100000x64_0_1 (broadcastInDim S1x64 ![1] Gen.bcast_S64_S1x64_1 (m ((c.tc : Thread nD τ).loc main_arg7))))
      = Cert.Spec.bias a (m ((c.tc : Thread nD τ).loc main_arg7)) :=
    fun a => Cert.Spec.bias_of_ops Gen.bcast_S64_S1x64_1 Gen.bcast_S1x64_S100000x64_0_1 a _
  rw [h1, hA128, hBR, h2, hA64, hB]
  rfl

end Cert.ReferenceIdeal.RefSide

end
-- ==== Proof.EdgesEq.lean ====
/-
  The two programs spell the edge data with their own copies of the same shapes and dimension-number records; the
  functions are the same, by unfolding the names.
-/
import proofs.«170396_j57758720196620_1_alg».proof.Proof.EdgesK
import proofs.«170396_j57758720196620_1_alg».proof.Proof.EdgesR

set_option maxRecDepth 16384

noncomputable section

namespace Cert.EdgesEq

open Idealize.ShloMosaic

variable {F : FTy → Type} [FloatOps F]

/-- The destination words. -/
theorem dst_eq (e : IVec Cert.KernelIdeal.S2x1600000 32) :
    Cert.ReferenceIdeal.Edges.dstE e = Cert.KernelIdeal.Edges.dstE e := rfl

/-- The wrapped source words. -/
theorem src_eq (e : IVec Cert.KernelIdeal.S2x1600000 32) :
    Cert.ReferenceIdeal.Edges.srcE e = Cert.KernelIdeal.Edges.srcE e := rfl

/-- The edge weights. -/
theorem nrm_eq (e : IVec Cert.KernelIdeal.S2x1600000 32) :
    Cert.ReferenceIdeal.Edges.nrmE (F := F) e = Cert.KernelIdeal.Edges.nrmE (F := F) e := rfl

end Cert.EdgesEq

end
-- ==== Proof.lean ====
/-
  A two-layer graph convolution (a variational graph encoder): the kernel program against its jnp reference, over the
  extended reals.

  Both programs compute the edge data the same way, on the host: the source and destination words with the self
  loops appended, each node's degree, and each edge's weight `deg(src)^(-1/2) · deg(dst)^(-1/2)` (zero where a degree
  is not positive). A layer is `A·(x·W) + b`, the aggregation `A` summing, for each node, the weighted rows of its
  in-neighbours. The reference runs the first layer with a positive part, and then the second layer twice, once per
  head (`Wmu, bmu` and `Wls, bls`). The kernel program runs the two matrix products and the two bias passes as four
  pipelined kernel regions over row blocks of 10,000 nodes, the aggregations between them on the host, and runs the
  second layer ONCE, on the two heads' weights laid side by side and the two biases laid end to end, cutting the two
  heads out of the 128-column result by column slices.

  Every step of a layer acts on each column of its operand alone, so columns `0‥63` (`64‥127`) of the fused second layer
  are, entry by entry, the very sums the reference's first (second) head computes: the claim holds with no algebraic
  law and without reading the precondition (the entries may be infinite; the index words may be anything: both
  programs gather with the same clamp and drop the same out-of-range updates).

  The kernel program's run and its four regions' whole-array functions, the host composites read as the layer's
  functions, the reference's run and the column bridge are each a module; here they are put together.
-/
import proofs.«170396_j57758720196620_1_alg».proof.Defs
import proofs.«170396_j57758720196620_1_alg».proof.Proof.Gen.Kernel
import proofs.«170396_j57758720196620_1_alg».proof.Proof.Gen.Kernel.Frame
import proofs.«170396_j57758720196620_1_alg».proof.Proof.Gen.KernelIdeal
import proofs.«170396_j57758720196620_1_alg».proof.Proof.Gen.KernelIdeal.Frame
import proofs.«170396_j57758720196620_1_alg».proof.Proof.Gen.ReferenceIdeal
import proofs.«170396_j57758720196620_1_alg».proof.Proof.Gen.Pre_finite_inputs
import proofs.«170396_j57758720196620_1_alg».proof.Proof.KRun
import proofs.«170396_j57758720196620_1_alg».proof.Proof.KChainB
import proofs.«170396_j57758720196620_1_alg».proof.Proof.RefRun
import proofs.«170396_j57758720196620_1_alg».proof.Proof.RefSide
import proofs.«170396_j57758720196620_1_alg».proof.Proof.EdgesEq
import proofs.«170396_j57758720196620_1_alg».proof.Proof.Spec
import Idealize.ShloMosaic.Adequacy
import Idealize.ShloMosaic.Init

set_option maxRecDepth 16384

noncomputable section

namespace Cert.Proof

open Idealize.ShloMosaic Idealize.SL.Sem

/-! ## The frames -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing: the idealization is the program's own text read over the extended reals. -/
theorem preserves : Cert.preserves_Kernel_KernelIdeal := trivial

/-! ## The values -/

/-- The first head: from arguments that agree, the reference's first result is the kernel program's. -/
theorem head0 (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.ValueP.res_main_v70 (F := Ideal) m' c
      = Cert.KernelIdeal.Gen.W11 m ρ c (Proc.devRef .tc Cert.KernelIdeal.main_v70) := by
  rw [Cert.ReferenceIdeal.RefSide.out0_eq, Cert.KernelIdeal.Chain.value70]
  unfold Cert.ReferenceIdeal.RefSide.hidden Cert.KernelIdeal.Chain.fusedK Cert.KernelIdeal.Chain.hiddenK
  rw [e0, e1, e2, e3, e4, e5, Cert.EdgesEq.dst_eq, Cert.EdgesEq.src_eq, Cert.EdgesEq.nrm_eq]
  exact (Cert.Spec.head_mu _ _ _ _ _ _ _ _).symm

/-- The second head. -/
theorem head1 (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.ValueP.res_main_v87 (F := Ideal) m' c
      = Cert.KernelIdeal.Gen.W11 m ρ c (Proc.devRef .tc Cert.KernelIdeal.main_v71) := by
  rw [Cert.ReferenceIdeal.RefSide.out1_eq, Cert.KernelIdeal.Chain.value71]
  unfold Cert.ReferenceIdeal.RefSide.hidden Cert.KernelIdeal.Chain.fusedK Cert.KernelIdeal.Chain.hiddenK
  rw [e0, e1, e2, e3, e6, e7, Cert.EdgesEq.dst_eq, Cert.EdgesEq.src_eq, Cert.EdgesEq.nrm_eq]
  exact (Cert.Spec.head_ls _ _ _ _ _ _ _ _).symm

/-- Both programs run; the kernel program's two results (the run's last boundary read at the result buffers) are the
    reference's. -/
theorem algebraic : Cert.algebraic_KernelIdeal_ReferenceIdeal := by
  intro m ρ m' ρ' _ hagree
  refine ⟨fun c => Cert.KernelIdeal.Gen.W11 m ρ c (Proc.devRef .tc Cert.KernelIdeal.main_v70),
    fun c => Cert.KernelIdeal.Gen.W11 m ρ c (Proc.devRef .tc Cert.KernelIdeal.main_v71),
    Cert.KernelIdeal.GenP.run_values m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · exact head0 m ρ m' c (hagree c).1 (hagree c).2.1 (hagree c).2.2.1 (hagree c).2.2.2.1 (hagree c).2.2.2.2.1 (hagree c).2.2.2.2.2.1
  · exact head1 m ρ m' c (hagree c).1 (hagree c).2.1 (hagree c).2.2.1 (hagree c).2.2.2.1 (hagree c).2.2.2.2.2.2.1 (hagree c).2.2.2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
